-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S400000 : Shape := ⟨1, ![400000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : IVec S400000 32) (main_arg8 : IVec S400000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S400000x128 : Shape := ⟨2, ![400000, 128]⟩
abbrev S1x128 : Shape := ⟨2, ![1, 128]⟩
abbrev S5000x128 : Shape := ⟨2, ![5000, 128]⟩

abbrev nBuf : Space → Nat
  | .hbm => 62
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S400000, .i32⟩
  | .hbm, ⟨8, _⟩ => ⟨S400000, .i32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S100000, .f32⟩
  | .hbm, ⟨13, _⟩ => ⟨S400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S_, .f32⟩
  | .hbm, ⟨40, _⟩ => ⟨S100000x128, .f32⟩
  | .hbm, ⟨41, _⟩ => ⟨S400000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S100000x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v33_2 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v33_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S400000 : Shape := ⟨1, ![400000]⟩
abbrev S_ : Shape := ⟨0, ![]⟩
abbrev S100000 : Shape := ⟨1, ![100000]⟩
abbrev S400000x1 : Shape := ⟨2, ![400000, 1]⟩
abbrev S100000x1 : Shape := ⟨2, ![100000, 1]⟩
abbrev S400000x128 : Shape := ⟨2, ![400000, 128]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S400000, .i32⟩
  | .hbm, ⟨8, _⟩ => ⟨S400000, .i32⟩
  | .hbm, ⟨9, _⟩ => ⟨S_, .f32⟩
  | .hbm, ⟨10, _⟩ => ⟨S400000, .f32⟩
  | .hbm, ⟨11, _⟩ => ⟨S_, .f32⟩
  | .hbm, ⟨12, _⟩ => ⟨S100000, .f32⟩
  | .hbm, ⟨13, _⟩ => ⟨S400000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S400000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S400000, .i32⟩
  | .hbm, ⟨32, _⟩ => ⟨S400000, .i1⟩
  | .hbm, ⟨33, _⟩ => ⟨S_, .i32⟩
  | .hbm, ⟨34, _⟩ => ⟨S400000, .i32⟩
  | .hbm, ⟨35, _⟩ => ⟨S400000, .i32⟩
  | .hbm, ⟨36, _⟩ => ⟨S400000, .i32⟩
  | .hbm, ⟨37, _⟩ => ⟨S400000x1, .i32⟩
  | .hbm, ⟨38, _⟩ => ⟨S400000x128, .f32⟩
  | .hbm, ⟨39, _⟩ => ⟨S_, .f32⟩
  | .hbm, ⟨40, _⟩ => ⟨S100000x128, .f32⟩
  | .hbm, ⟨41, _⟩ => ⟨S400000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«117146_j44933947850910_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.LibAgg.lean ====
/- The graph aggregation both programs spell, as ONE function of its inputs. With self-loops added to the edge list
   (row = src ++ [0..N), col = dst ++ [0..N), weights = ew ++ ones) the degree of node n is the sum of the weights of the
   entries whose row is n; dis = rsqrt(where(deg > 0, deg, 1)) * [deg > 0]; an entry's coefficient is
   dis[row] * weight * dis[col]; and the result's row n is the sum over the entries whose col is n of the coefficient
   times t's row at the entry's row. Negative indices are wrapped by N before a gather, a gather clamps, a scatter drops
   what lands outside: the function is total in the integer inputs, whatever they are.

   The function is stated over arbitrary shapes, broadcast facts and dimension numbers (`Spec`), so that the two
   programs' aggregations, at width 128 and at width 2, with unit weights or with given ones, are all instances of
   it; and its one property used downstream, that a result computed from real weights and a real t has only real
   entries, is proved once, from closure facts that need no index arithmetic: a broadcast, a concatenation and a gather
   only READ their operand, the accumulating scatter into real entries adds finitely many real updates, and the
   reciprocal square root is taken of a positive real. -/
import Idealize.ShloMosaic.PureOps.Ideal
import Idealize.ShloMosaic.PureOps.Ideal.Laws
import Idealize.ShloMosaic.Lib.ValueIdx
import Idealize.ShloMosaic.Lib.StableHlo.Run
import Idealize.ShloMosaic.Lib.Pipeline.Frame
import proofs.«117146_j44933947850910_1_alg».proof.Proof.LibFinite
import proofs.«117146_j44933947850910_1_alg».proof.Proof.LibConsts

noncomputable section

namespace Cert.LibAgg

open Idealize.ShloMosaic
open Cert.LibFinite
open scoped BigOperators

/-! ## Reading a fold of host operations stage by stage -/

/-- Rewrites what a one-pass reading leaves unread: an operation's result at its own buffer, or at another one,
    under the operand list of a concatenation. -/
macro "results_rw" : tactic =>
  `(tactic| (repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide))))

section Fold

open Idealize.ShloMosaic.StableHlo Idealize.SL.Sem

variable {τ : Topo} {sig : RefSig} {Val : EltTy → Type}

/-- The fold through a list of operations is the fold through its tail from position `k`, started from the fold
    through its first `k` operations. -/
theorem after_split (k : ℕ) (l : List (HloOp τ sig Val)) (V : Valuation τ sig Val) :
    after l V = after (l.drop k) (after (l.take k) V) := by
  rw [← after_append, List.take_append_drop]

/-- The fold cut into a head of `s` operations, three consecutive stages of `a`, `b` and `c` operations, and the rest. -/
theorem after_cut (s a b c : ℕ) (l : List (HloOp τ sig Val)) (V : Valuation τ sig Val) :
    after l V = after ((((l.drop s).drop a).drop b).drop c) (after ((((l.drop s).drop a).drop b).take c)
      (after (((l.drop s).drop a).take b) (after ((l.drop s).take a) (after (l.take s) V)))) := by
  rw [← after_split c, ← after_split b, ← after_split a, ← after_split s]

end Fold

/-! ## Closure of "every entry is real" under the host operations of the chain -/

/-- A broadcast only reads its operand. -/
theorem fin_bcast {s t : Shape} (dims : Fin s.rank → Fin t.rank) (h : s.BroadcastsInDim t dims) (x : s.Idx → EReal)
    (hx : ∀ i, IsFin (x i)) (j : t.Idx) : IsFin (broadcastInDim t dims h x j) := hx _

/-- A gather only reads its operand, wherever the (clamped) index words point. -/
theorem fin_gather {s si t : Shape} {w : Nat} (d : GatherDims s si t) (x : s.Idx → EReal) (idx : IVec si w)
    (hx : ∀ i, IsFin (x i)) (j : t.Idx) : IsFin (Host.gather d x idx j) := hx _

/-- A concatenation reads one of its operands. -/
theorem fin_concat {t : Shape} (a : Fin t.rank) (xs : List ((s : Shape) × (s.Idx → EReal)))
    (h : Shape.Concatenates (xs.map (·.1)) t a) (hx : ∀ p ∈ xs, ∀ i, IsFin (p.2 i)) (j : t.Idx) :
    IsFin (concatenate t a xs h j) := by
  unfold concatenate
  exact hx _ (List.getElem_mem _) _

/-- The same for two operands laid end to end. -/
theorem fin_concat2 {t sa sb : Shape} (ax : Fin t.rank) (a : sa.Idx → EReal) (b : sb.Idx → EReal)
    (h : Shape.Concatenates [sa, sb] t ax) (ha : ∀ i, IsFin (a i)) (hb : ∀ i, IsFin (b i)) (j : t.Idx) :
    IsFin (concatenate t ax [⟨sa, a⟩, ⟨sb, b⟩] h j) :=
  fin_concat ax [⟨sa, a⟩, ⟨sb, b⟩] h (fun p hp => by
    rcases List.mem_cons.mp hp with rfl | hp
    · exact ha
    · rcases List.mem_cons.mp hp with rfl | hp
      · exact hb
      · exact absurd hp List.not_mem_nil) j

/-- The accumulating scatter adds to each operand entry the finitely many updates that land on it. -/
theorem fin_scatterAdd {s si u : Shape} {w : Nat} (d : ScatterDims s si u) (x : FVec Ideal s .f32) (idx : IVec si w)
    (upd : FVec Ideal u .f32) (hx : ∀ i, IsFin (x i)) (hu : ∀ j, IsFin (upd j)) (i : s.Idx) :
    IsFin (Host.scatterAdd d x idx upd i) := by
  show IsFin (x i + ∑ j ∈ Finset.univ.filter (fun j => d.resultIdx? j idx = some i), upd j)
  exact (hx i).add (isFin_sum _ _ fun j _ => hu j)

/-- A constant array of a real literal. -/
theorem fin_const {s : Shape} (b : BitVec 32) (hb : IsFin (Ideal.ofBits .f32 b)) (i : s.Idx) :
    IsFin (constant (F := Ideal) s .f32 b i) := hb

theorem fin_mulf {s : Shape} (a b : FVec Ideal s .f32) (ha : ∀ i, IsFin (a i)) (hb : ∀ i, IsFin (b i)) (i : s.Idx) :
    IsFin (mulf a b i) := (ha i).mul (hb i)

/-- The 0/1 value of a truth bit is real. -/
theorem fin_uitofp {s : Shape} (x : IVec s 1) (i : s.Idx) : IsFin ((uitofp .f32 x : FVec Ideal s .f32) i) :=
  isFin_coe _

/-- The strict comparison's bit is set exactly when the strict inequality holds. -/
theorem cmp_ogt_eq_one {x y : EReal} : Ideal.cmp .ogt x y = (1 : BitVec 1) ↔ y < x := by
  unfold Ideal.cmp
  by_cases h : y < x <;> simp [h]

/-! ## The aggregation -/

/-- The shapes' broadcast and concatenation facts and the gathers' and scatters' dimension numbers: `s0` the scalar
    shape, `sN` [N], `sE` [E], `sM` [E+N], `sM1` [E+N, 1], `sNW` [N, W], `sMW` [E+N, W]. -/
structure Spec (s0 sN sE sM sM1 sNW sMW : Shape) where
  d0N : Fin s0.rank → Fin sN.rank
  h0N : s0.BroadcastsInDim sN d0N
  d0M : Fin s0.rank → Fin sM.rank
  h0M : s0.BroadcastsInDim sM d0M
  d0NW : Fin s0.rank → Fin sNW.rank
  h0NW : s0.BroadcastsInDim sNW d0NW
  dM1 : Fin sM.rank → Fin sM1.rank
  hM1 : sM.BroadcastsInDim sM1 dM1
  dMW : Fin sM1.rank → Fin sMW.rank
  hMW : sM1.BroadcastsInDim sMW dMW
  axI : Fin sN.rank
  axC : Fin sM.rank
  hC : Shape.Concatenates [sE, sN] sM axC
  nWrap : BitVec 32
  scat1 : ScatterDims sN sM1 sM
  gath1 : GatherDims sN sM1 sM
  gathW : GatherDims sNW sM1 sMW
  scatW : ScatterDims sNW sM1 sMW

variable {s0 sN sE sM sM1 sNW sMW : Shape} (S : Spec s0 sN sE sM sM1 sNW sMW)

/-- An edge list with one self-loop per node appended. -/
def withSelf (e : IVec sE 32) : IVec sM 32 :=
  concatenate sM S.axC [⟨sE, e⟩, ⟨sN, iotaInDim sN 32 S.axI⟩] S.hC

/-- The edge weights with a unit weight per self-loop appended. -/
def eew (ew : FVec Ideal sE .f32) : FVec Ideal sM .f32 :=
  concatenate sM S.axC [⟨sE, ew⟩, ⟨sN, broadcastInDim sN S.d0N S.h0N (constant s0 .f32 0x3F800000#32)⟩] S.hC

/-- A node's degree: the sum of the weights of the entries whose row it is. -/
def deg (row : IVec sM 32) (w : FVec Ideal sM .f32) : FVec Ideal sN .f32 :=
  Host.scatterAdd S.scat1 (broadcastInDim sN S.d0N S.h0N (constant s0 .f32 0x00000000#32))
    (broadcastInDim sM1 S.dM1 S.hM1 row) w

/-- The degree where it is positive, one elsewhere. -/
def safeDeg (dg : FVec Ideal sN .f32) : FVec Ideal sN .f32 :=
  select (cmpf .ogt dg (broadcastInDim sN S.d0N S.h0N (constant s0 .f32 0x00000000#32))) dg
    (broadcastInDim sN S.d0N S.h0N (id (constant s0 .f32 0x3F800000#32)))

/-- The reciprocal square root of the guarded degree `sd`, times the 0/1 value of "the degree `dg` is positive". -/
def disOf (sd dg : FVec Ideal sN .f32) : FVec Ideal sN .f32 :=
  mulf (Host.rsqrt sd)
    (uitofp .f32 (cmpf .ogt dg (broadcastInDim sN S.d0N S.h0N (constant s0 .f32 0x00000000#32))))

/-- The reciprocal square root of the degree where it is positive, zero elsewhere. -/
def dis (dg : FVec Ideal sN .f32) : FVec Ideal sN .f32 := disOf S (safeDeg S dg) dg

/-- A negative index counted from the end. -/
def wrap (x : IVec sM 32) : IVec sM 32 :=
  select (cmpi .slt x (broadcastInDim sM S.d0M S.h0M (constantI s0 32 0#32)))
    (addi x (broadcastInDim sM S.d0M S.h0M (constantI s0 32 S.nWrap))) x

/-- An entry's coefficient: dis at its row, times its weight, times dis at its column. -/
def norm (row col : IVec sM 32) (w : FVec Ideal sM .f32) (ds : FVec Ideal sN .f32) : FVec Ideal sM .f32 :=
  mulf (mulf (Host.gather S.gath1 ds (broadcastInDim sM1 S.dM1 S.hM1 (wrap S row))) w)
    (Host.gather S.gath1 ds (broadcastInDim sM1 S.dM1 S.hM1 (wrap S col)))

/-- The aggregate: each entry's coefficient times t's row at the entry's row, summed at the entry's column. -/
def out (row col : IVec sM 32) (nm : FVec Ideal sM .f32) (t : FVec Ideal sNW .f32) : FVec Ideal sNW .f32 :=
  Host.scatterAdd S.scatW (broadcastInDim sNW S.d0NW S.h0NW (constant s0 .f32 0x00000000#32))
    (broadcastInDim sM1 S.dM1 S.hM1 col)
    (mulf (broadcastInDim sMW S.dMW S.hMW (broadcastInDim sM1 S.dM1 S.hM1 nm))
      (Host.gather S.gathW t (broadcastInDim sM1 S.dM1 S.hM1 (wrap S row))))

/-- The whole aggregation of `t` over the edges `src → dst` with weights `ew`. -/
def agg (src dst : IVec sE 32) (ew : FVec Ideal sE .f32) (t : FVec Ideal sNW .f32) : FVec Ideal sNW .f32 :=
  out S (withSelf S src) (withSelf S dst)
    (norm S (withSelf S src) (withSelf S dst) (eew S ew) (dis S (deg S (withSelf S src) (eew S ew)))) t

/-! ## Its entries are real when the weights' and t's are -/

theorem fin_eew (ew : FVec Ideal sE .f32) (hw : ∀ i, IsFin (ew i)) (j : sM.Idx) : IsFin (eew S ew j) := by
  unfold eew
  exact fin_concat2 _ _ _ _ hw (fin_bcast S.d0N S.h0N _ (fin_const _ Cert.LibConsts.isFin_one_lit)) j

theorem fin_deg (row : IVec sM 32) (w : FVec Ideal sM .f32) (hw : ∀ i, IsFin (w i)) (n : sN.Idx) :
    IsFin (deg S row w n) :=
  fin_scatterAdd _ _ _ _ (fin_bcast _ _ _ (fin_const _ Cert.LibConsts.isFin_zero_lit)) hw n

/-- The guarded degree is a positive real. -/
theorem safeDeg_fin_pos (dg : FVec Ideal sN .f32) (hd : ∀ i, IsFin (dg i)) (n : sN.Idx) :
    IsFin (safeDeg S dg n) ∧ 0 < safeDeg S dg n := by
  have hz : broadcastInDim sN S.d0N S.h0N (constant (F := Ideal) s0 .f32 0x00000000#32) n = 0 :=
    Cert.LibConsts.ofBits_zero
  have ho : broadcastInDim sN S.d0N S.h0N (id (constant (F := Ideal) s0 .f32 0x3F800000#32)) n = 1 :=
    Cert.LibConsts.ofBits_one
  show IsFin (Scalar.select (Ideal.cmp .ogt (dg n) _) (dg n) _) ∧ 0 < Scalar.select (Ideal.cmp .ogt (dg n) _) (dg n) _
  rw [hz, ho]
  by_cases h : Ideal.cmp .ogt (dg n) 0 = (1 : BitVec 1)
  · have hv : Scalar.select (Ideal.cmp .ogt (dg n) 0) (dg n) (1 : EReal) = dg n := if_pos h
    rw [hv]; exact ⟨hd n, cmp_ogt_eq_one.mp h⟩
  · have hv : Scalar.select (Ideal.cmp .ogt (dg n) 0) (dg n) (1 : EReal) = 1 := if_neg h
    rw [hv]; exact ⟨isFin_one, zero_lt_one⟩

theorem fin_dis (dg : FVec Ideal sN .f32) (hd : ∀ i, IsFin (dg i)) (n : sN.Idx) : IsFin (dis S dg n) := by
  unfold dis disOf
  refine fin_mulf _ _ (fun i => ?_) (fin_uitofp _) n
  obtain ⟨hf, hp⟩ := safeDeg_fin_pos S dg hd i
  show IsFin (Ideal.rsqrt (safeDeg S dg i))
  exact hf.rsqrt hp

theorem fin_norm (row col : IVec sM 32) (w : FVec Ideal sM .f32) (ds : FVec Ideal sN .f32)
    (hw : ∀ i, IsFin (w i)) (hds : ∀ i, IsFin (ds i)) (j : sM.Idx) : IsFin (norm S row col w ds j) := by
  unfold norm
  exact fin_mulf _ _ (fin_mulf _ _ (fin_gather _ _ _ hds) hw) (fin_gather _ _ _ hds) j

theorem fin_out (row col : IVec sM 32) (nm : FVec Ideal sM .f32) (t : FVec Ideal sNW .f32)
    (hn : ∀ i, IsFin (nm i)) (ht : ∀ i, IsFin (t i)) (i : sNW.Idx) : IsFin (out S row col nm t i) := by
  unfold out
  exact fin_scatterAdd _ _ _ _ (fin_bcast _ _ _ (fin_const _ Cert.LibConsts.isFin_zero_lit))
    (fin_mulf _ _ (fin_bcast _ _ _ (fin_bcast _ _ _ hn)) (fin_gather _ _ _ ht)) i

/-- Real weights and a real `t` aggregate to real entries, whatever the edge lists hold. -/
theorem fin_agg (src dst : IVec sE 32) (ew : FVec Ideal sE .f32) (t : FVec Ideal sNW .f32)
    (hw : ∀ i, IsFin (ew i)) (ht : ∀ i, IsFin (t i)) (i : sNW.Idx) : IsFin (agg S src dst ew t i) := by
  unfold agg
  exact fin_out S _ _ _ _
    (fin_norm S _ _ _ _ (fin_eew S ew hw) (fin_dis S _ (fin_deg S _ _ (fin_eew S ew hw)))) ht i

/-- Unit weights, as both programs broadcast them, are real. -/
theorem fin_ones {s0 sE : Shape} (d : Fin s0.rank → Fin sE.rank) (h : s0.BroadcastsInDim sE d) (i : sE.Idx) :
    IsFin (broadcastInDim sE d h (constant (F := Ideal) s0 .f32 0x3F800000#32) i) :=
  fin_bcast _ _ _ (fin_const _ Cert.LibConsts.isFin_one_lit) i

end Cert.LibAgg

end
-- ==== Proof.LibSymGcnAgg.lean ====
/- The graph aggregation both programs spell with the same host operations, as ONE function of the node features and the
   two edge lists, for any number of edges, of nodes and of features. A node's out-degree is the number of edges whose source it is (an accumulating scatter of ones, which
   drops what lands outside), its in-degree likewise over the destinations; each degree is raised to at least one and its
   reciprocal square root taken. The features are scaled row by row by the source-side factor, the scaled row of each
   edge's source is gathered (a negative index first counted from the end; the gather clamps), the gathered rows are
   summed at each edge's destination, and the sums are scaled row by row by the destination-side factor.
   The function is total in the integer inputs. Its one property used downstream: real features aggregate to real
   entries, whatever the edge lists hold, since a degree is a finite sum of ones, the guarded degree is at least one,
   and gathers and broadcasts only read. -/
import Idealize.ShloMosaic.PureOps.Ideal
import proofs.«117146_j44933947850910_1_alg».proof.Proof.LibFinite
import proofs.«117146_j44933947850910_1_alg».proof.Proof.LibConsts
import proofs.«117146_j44933947850910_1_alg».proof.Proof.LibAgg

noncomputable section

namespace Cert.LibSymGcnAgg

open Idealize.ShloMosaic
open Cert.LibFinite
open scoped BigOperators

abbrev S0 : Shape := ⟨0, ![]⟩
abbrev SE (nE : Nat) : Shape := ⟨1, ![nE]⟩
abbrev SN (nN : Nat) : Shape := ⟨1, ![nN]⟩
abbrev SE1 (nE : Nat) : Shape := ⟨2, ![nE, 1]⟩
abbrev SN1 (nN : Nat) : Shape := ⟨2, ![nN, 1]⟩
abbrev SNW (nN w : Nat) : Shape := ⟨2, ![nN, w]⟩
abbrev SEW (nE w : Nat) : Shape := ⟨2, ![nE, w]⟩

/-- The shape relations the chain's operations ask for, at nE edges, nN nodes and w features: propositions only, so any
    two instances are equal. -/
structure Facts (nE nN w : Nat) : Prop where
  h0E : S0.BroadcastsInDim (SE nE) (![] : Fin 0 → Fin (SE nE).rank)
  h0N : S0.BroadcastsInDim (SN nN) (![] : Fin 0 → Fin (SN nN).rank)
  hE1 : (SE nE).BroadcastsInDim (SE1 nE) (![0] : Fin 1 → Fin (SE1 nE).rank)
  hN1 : (SN nN).BroadcastsInDim (SN1 nN) (![0] : Fin 1 → Fin (SN1 nN).rank)
  hN1W : (SN1 nN).BroadcastsInDim (SNW nN w) (![0, 1] : Fin 2 → Fin (SNW nN w).rank)
  h0NW : S0.BroadcastsInDim (SNW nN w) (![] : Fin 0 → Fin (SNW nN w).rank)
  sc1 : ScatterDims.WF (SN nN) (SE1 nE) (SE nE) [] [0] [0] 1
  ga : GatherDims.WF (SNW nN w) (SE1 nE) (SEW nE w) [1] [0] [] [0] [] 1 ![1, w]
  scW : ScatterDims.WF (SNW nN w) (SE1 nE) (SEW nE w) [1] [0] [0] 1

variable {nE nN w : Nat} (Φ : Facts nE nN w) (nWrap : BitVec 32)

/-- Scatter of one value per edge into the nodes. -/
def scat1 : ScatterDims (SN nN) (SE1 nE) (SE nE) where
  updateWindowDims := []
  insertedWindowDims := [0]
  scatterDimsToOperandDims := [0]
  indexVectorDim := 1
  wf := Φ.sc1

/-- Gather of one whole row per edge. -/
def gath : GatherDims (SNW nN w) (SE1 nE) (SEW nE w) where
  offsetDims := [1]
  collapsedSliceDims := [0]
  operandBatchingDims := []
  startIndicesBatchingDims := []
  startIndexMap := [0]
  indexVectorDim := 1
  sliceSizes := ![1, w]
  wf := Φ.ga

/-- Scatter of one whole row per edge into the nodes' rows. -/
def scatW : ScatterDims (SNW nN w) (SE1 nE) (SEW nE w) where
  updateWindowDims := [1]
  insertedWindowDims := [0]
  scatterDimsToOperandDims := [0]
  indexVectorDim := 1
  wf := Φ.scW

/-- How many edges have node n at the given end. -/
def degree (e : IVec (SE nE) 32) : FVec Ideal (SN nN) .f32 :=
  Host.scatterAdd (scat1 Φ) (broadcastInDim (SN nN) ![] Φ.h0N (constant S0 .f32 0x00000000#32))
    (broadcastInDim (SE1 nE) ![0] Φ.hE1 e) (broadcastInDim (SE nE) ![] Φ.h0E (constant S0 .f32 0x3F800000#32))

/-- The reciprocal square root of the degree raised to at least one. -/
def invSqrtDeg (e : IVec (SE nE) 32) : FVec Ideal (SN nN) .f32 :=
  Host.rsqrt (maximumf (degree Φ e) (broadcastInDim (SN nN) ![] Φ.h0N (constant S0 .f32 0x3F800000#32)))

/-- A negative index counted from the end. -/
def wrapIdx (e : IVec (SE nE) 32) : IVec (SE nE) 32 :=
  select (cmpi .slt e (broadcastInDim (SE nE) ![] Φ.h0E (constantI S0 32 0#32)))
    (addi e (broadcastInDim (SE nE) ![] Φ.h0E (constantI S0 32 nWrap))) e

/-- A per-node factor laid along the rows of the feature array. -/
def alongRows (f : FVec Ideal (SN nN) .f32) : FVec Ideal (SNW nN w) .f32 :=
  broadcastInDim (SNW nN w) ![0, 1] Φ.hN1W (broadcastInDim (SN1 nN) ![0] Φ.hN1 f)

/-- The whole aggregation. -/
def hagg (X : FVec Ideal (SNW nN w) .f32) (src dst : IVec (SE nE) 32) : FVec Ideal (SNW nN w) .f32 :=
  mulf (Host.scatterAdd (scatW Φ) (broadcastInDim (SNW nN w) ![] Φ.h0NW (constant S0 .f32 0x00000000#32))
      (broadcastInDim (SE1 nE) ![0] Φ.hE1 dst)
      (Host.gather (gath Φ) (mulf X (alongRows Φ (invSqrtDeg Φ src))) (broadcastInDim (SE1 nE) ![0] Φ.hE1 (wrapIdx Φ nWrap src))))
    (alongRows Φ (invSqrtDeg Φ dst))

/-- Any two instances of the facts give the same function. -/
theorem hagg_facts_irrel (Φ Φ' : Facts nE nN w) : hagg Φ = hagg Φ' := rfl

/-! ## Its entries are real when the features' are -/

theorem degree_fin (e : IVec (SE nE) 32) (n : (SN nN).Idx) : IsFin (degree Φ e n) :=
  Cert.LibAgg.fin_scatterAdd _ _ _ _ (Cert.LibAgg.fin_bcast _ _ _ (Cert.LibAgg.fin_const _ Cert.LibConsts.isFin_zero_lit))
    (Cert.LibAgg.fin_bcast _ _ _ (Cert.LibAgg.fin_const _ Cert.LibConsts.isFin_one_lit)) n

theorem invSqrtDeg_fin (e : IVec (SE nE) 32) (n : (SN nN).Idx) : IsFin (invSqrtDeg Φ e n) := by
  have ho : broadcastInDim (SN nN) ![] Φ.h0N (constant (F := Ideal) S0 .f32 0x3F800000#32) n = 1 := Cert.LibConsts.ofBits_one
  show IsFin (Ideal.rsqrt (max (degree Φ e n) (broadcastInDim (SN nN) ![] Φ.h0N (constant (F := Ideal) S0 .f32 0x3F800000#32) n)))
  rw [ho]
  exact ((degree_fin Φ e n).max isFin_one).rsqrt (lt_of_lt_of_le zero_lt_one (le_max_right _ _))

theorem alongRows_fin (f : FVec Ideal (SN nN) .f32) (hf : ∀ n, IsFin (f n)) (i : (SNW nN w).Idx) : IsFin (alongRows Φ f i) :=
  Cert.LibAgg.fin_bcast _ _ _ (Cert.LibAgg.fin_bcast _ _ _ hf) i

/-- Real features aggregate to real entries, whatever the edge lists hold. -/
theorem hagg_fin (X : FVec Ideal (SNW nN w) .f32) (src dst : IVec (SE nE) 32) (hX : ∀ i, IsFin (X i)) (i : (SNW nN w).Idx) :
    IsFin (hagg Φ nWrap X src dst i) := by
  unfold hagg
  exact Cert.LibAgg.fin_mulf _ _
    (Cert.LibAgg.fin_scatterAdd _ _ _ _ (Cert.LibAgg.fin_bcast _ _ _ (Cert.LibAgg.fin_const _ Cert.LibConsts.isFin_zero_lit))
      (Cert.LibAgg.fin_gather _ _ _ (Cert.LibAgg.fin_mulf _ _ hX (alongRows_fin Φ _ (invSqrtDeg_fin Φ src)))))
    (alongRows_fin Φ _ (invSqrtDeg_fin Φ dst)) i

end Cert.LibSymGcnAgg

end
-- ==== Proof.KHost.lean ====
/- What each kernel region finds in its operand arrays, read back through the host operations to the argument arrays.
   Before the first region the host has computed the aggregated features (one function of the features and the two edge
   lists, kept whole) and recast the two bias vectors as one-row arrays; the weights and features are the arguments
   themselves. Between the regions it divides the two column sums by the row count, takes the mean's square from the mean
   of squares, and leaves the first region's y, and the recast scale and shift vectors, as they were. -/
import proofs.«117146_j44933947850910_1_alg».proof.Proof.Gen.KernelIdeal.Frame
import proofs.«117146_j44933947850910_1_alg».proof.Proof.LibSymGcnAgg
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

/-- The shape relations the aggregation asks for, as this program states them. -/
theorem aggFacts : Cert.LibSymGcnAgg.Facts 400000 100000 128 :=
  ⟨bcast_S_S400000, bcast_S_S100000, bcast_S400000_S400000x1_0, bcast_S100000_S100000x1_0, bcast_S100000x1_S100000x128_0_1,
    bcast_S_S100000x128, scatter_S100000_S400000x1_S400000_n_0_0_1_wf, gather_S100000x128_S400000x1_S400000x128_1_0_n_n_0_1_1128_wf,
    scatter_S100000x128_S400000x1_S400000x128_1_0_0_1_wf⟩

variable (m : (ℓ : Loc nD τ sig) → Buf (Elt Ideal) ℓ) (ρ : Dev nD → PrngReg)

/-- The argument arrays at launch. -/
abbrev a0 (c : Dev nD) : FVec Ideal S100000x128 .f32 := m ((c.tc : Thread nD τ).loc main_arg0)
abbrev a1 (c : Dev nD) : FVec Ideal S128x128 .f32 := m ((c.tc : Thread nD τ).loc main_arg1)
abbrev a2 (c : Dev nD) : FVec Ideal S128 .f32 := m ((c.tc : Thread nD τ).loc main_arg2)
abbrev a3 (c : Dev nD) : FVec Ideal S128x128 .f32 := m ((c.tc : Thread nD τ).loc main_arg3)
abbrev a4 (c : Dev nD) : FVec Ideal S128 .f32 := m ((c.tc : Thread nD τ).loc main_arg4)
abbrev a5 (c : Dev nD) : FVec Ideal S128 .f32 := m ((c.tc : Thread nD τ).loc main_arg5)
abbrev a6 (c : Dev nD) : FVec Ideal S128 .f32 := m ((c.tc : Thread nD τ).loc main_arg6)
abbrev a7 (c : Dev nD) : IVec S400000 32 := m ((c.tc : Thread nD τ).loc main_arg7)
abbrev a8 (c : Dev nD) : IVec S400000 32 := m ((c.tc : Thread nD τ).loc main_arg8)

/-! ## The first region's operands -/

set_option maxHeartbeats 16000000 in
/-- The aggregated features. -/
theorem V1_h (c : Dev nD) :
    (V1 m ρ c main_v28 : FVec Ideal S100000x128 .f32) = Cert.LibSymGcnAgg.hagg aggFacts 100000#32 (a0 m c) (a7 m c) (a8 m c) := by
  show StableHlo.after hostOps0 (W0 m ρ c) (Proc.devRef .tc main_v28) = _
  after_results_simp <;> rfl

set_option maxHeartbeats 16000000 in
theorem V1_x (c : Dev nD) : (V1 m ρ c main_arg0 : FVec Ideal S100000x128 .f32) = a0 m c := by
  show StableHlo.after hostOps0 (W0 m ρ c) (Proc.devRef .tc main_arg0) = _
  after_results_simp <;> rfl

set_option maxHeartbeats 16000000 in
theorem V1_w (c : Dev nD) : (V1 m ρ c main_arg1 : FVec Ideal S128x128 .f32) = a1 m c := by
  show StableHlo.after hostOps0 (W0 m ρ c) (Proc.devRef .tc main_arg1) = _
  after_results_simp <;> rfl

set_option maxHeartbeats 16000000 in
theorem V1_wr (c : Dev nD) : (V1 m ρ c main_arg3 : FVec Ideal S128x128 .f32) = a3 m c := by
  show StableHlo.after hostOps0 (W0 m ρ c) (Proc.devRef .tc main_arg3) = _
  after_results_simp <;> rfl

set_option maxHeartbeats 16000000 in
/-- The first bias vector as a one-row array. -/
theorem V1_b (c : Dev nD) :
    (V1 m ρ c main_v29 : FVec Ideal S1x128 .f32) = shapeCast S1x128 (a2 m c) shapeCasts_S128_S1x128 := by
  show StableHlo.after hostOps0 (W0 m ρ c) (Proc.devRef .tc main_v29) = _
  after_results_simp <;> rfl

set_option maxHeartbeats 16000000 in
/-- The second bias vector as a one-row array. -/
theorem V1_br (c : Dev nD) :
    (V1 m ρ c main_v30 : FVec Ideal S1x128 .f32) = shapeCast S1x128 (a4 m c) shapeCasts_S128_S1x128 := by
  show StableHlo.after hostOps0 (W0 m ρ c) (Proc.devRef .tc main_v30) = _
  after_results_simp <;> rfl

set_option maxHeartbeats 16000000 in
/-- The scale vector as a one-row array, before the first region. -/
theorem V1_gam (c : Dev nD) :
    (V1 m ρ c main_v31 : FVec Ideal S1x128 .f32) = shapeCast S1x128 (a5 m c) shapeCasts_S128_S1x128 := by
  show StableHlo.after hostOps0 (W0 m ρ c) (Proc.devRef .tc main_v31) = _
  after_results_simp <;> rfl

set_option maxHeartbeats 16000000 in
/-- The shift vector as a one-row array, before the first region. -/
theorem V1_bet (c : Dev nD) :
    (V1 m ρ c main_v32 : FVec Ideal S1x128 .f32) = shapeCast S1x128 (a6 m c) shapeCasts_S128_S1x128 := by
  show StableHlo.after hostOps0 (W0 m ρ c) (Proc.devRef .tc main_v32) = _
  after_results_simp <;> rfl

/-! ## The first region's exit: its three outputs at what the write-backs leave, everything else as entered -/

theorem W2_y (c : Dev nD) : W2 m ρ c (Proc.devRef .tc main_v33_0) = (dat0 (V1 m ρ) c).arrAt 6 cfg0.N := W2_arr m ρ c 6
theorem W2_sum (c : Dev nD) : W2 m ρ c (Proc.devRef .tc main_v33_1) = (dat0 (V1 m ρ) c).arrAt 7 cfg0.N := W2_arr m ρ c 7
theorem W2_sumsq (c : Dev nD) : W2 m ρ c (Proc.devRef .tc main_v33_2) = (dat0 (V1 m ρ) c).arrAt 8 cfg0.N := W2_arr m ρ c 8
theorem W2_gam (c : Dev nD) : W2 m ρ c (Proc.devRef .tc main_v31) = V1 m ρ c main_v31 := W2_of_ne m ρ c main_v31 (by decide)
theorem W2_bet (c : Dev nD) : W2 m ρ c (Proc.devRef .tc main_v32) = V1 m ρ c main_v32 := W2_of_ne m ρ c main_v32 (by decide)

/-! ## The second region's operands -/

theorem V3_y (c : Dev nD) : V3 m ρ c main_v33_0 = W2 m ρ c (Proc.devRef .tc main_v33_0) := by
  show StableHlo.after hostOps1 (W2 m ρ c) (Proc.devRef .tc main_v33_0) = _
  after_results_simp <;> rfl

/-- The column means: the first region's column sums over the row count. -/
theorem V3_mean (c : Dev nD) :
    (V3 m ρ c main_v35 : FVec Ideal S1x128 .f32)
      = Host.divf (F := Ideal) (W2 m ρ c (Proc.devRef .tc main_v33_1) : FVec Ideal S1x128 .f32)
          (broadcastInDim S1x128 ![] bcast_S_S1x128 (constant (F := Ideal) S_ .f32 0x47C35000#32)) := by
  show StableHlo.after hostOps1 (W2 m ρ c) (Proc.devRef .tc main_v35) = _
  after_results_simp <;> rfl

/-- The column variances: the mean of the squares less the squared mean. -/
theorem V3_var (c : Dev nD) :
    (V3 m ρ c main_v39 : FVec Ideal S1x128 .f32)
      = subf (F := Ideal) (Host.divf (F := Ideal) (W2 m ρ c (Proc.devRef .tc main_v33_2) : FVec Ideal S1x128 .f32)
            (broadcastInDim S1x128 ![] bcast_S_S1x128 (constant (F := Ideal) S_ .f32 0x47C35000#32)))
          (mulf (F := Ideal) (Host.divf (F := Ideal) (W2 m ρ c (Proc.devRef .tc main_v33_1) : FVec Ideal S1x128 .f32)
              (broadcastInDim S1x128 ![] bcast_S_S1x128 (constant (F := Ideal) S_ .f32 0x47C35000#32)))
            (Host.divf (F := Ideal) (W2 m ρ c (Proc.devRef .tc main_v33_1) : FVec Ideal S1x128 .f32)
              (broadcastInDim S1x128 ![] bcast_S_S1x128 (constant (F := Ideal) S_ .f32 0x47C35000#32)))) := by
  show StableHlo.after hostOps1 (W2 m ρ c) (Proc.devRef .tc main_v39) = _
  after_results_simp <;> rfl

theorem V3_gam (c : Dev nD) : V3 m ρ c main_v31 = W2 m ρ c (Proc.devRef .tc main_v31) := by
  show StableHlo.after hostOps1 (W2 m ρ c) (Proc.devRef .tc main_v31) = _
  after_results_simp <;> rfl

theorem V3_bet (c : Dev nD) : V3 m ρ c main_v32 = W2 m ρ c (Proc.devRef .tc main_v32) := by
  show StableHlo.after hostOps1 (W2 m ρ c) (Proc.devRef .tc main_v32) = _
  after_results_simp <;> rfl

end Cert.KernelIdeal.HostSide

end
-- ==== Proof.LibBnVar.lean ====
/- The variance identity of batch normalisation. Over finitely many FINITE values `x r`, `r : Fin n`, with `n ≠ 0`,
   the mean of the squares minus the square of the mean equals the mean of the squared deviations from the mean:
       (∑ x²)/n − ((∑ x)/n)² = (∑ (x − (∑ x)/n)²)/n.
   At finite values every operation is the real one, so both sides are the coercion of one real number; expanding the
   square and using `∑ 1 = n` gives the identity in ℝ. (At an infinite `x r` the two sides are different junk values,
   which is why finiteness is assumed.) The common value is nonnegative and finite, and so is the mean finite. -/
import Idealize.ShloMosaic.PureOps.Ideal
import Mathlib.Algebra.BigOperators.Ring.Finset
import Mathlib.Algebra.Order.BigOperators.Ring.Finset
import Mathlib.Tactic.FieldSimp
import Mathlib.Tactic.Ring
import proofs.«117146_j44933947850910_1_alg».proof.Proof.LibFinite
import proofs.«117146_j44933947850910_1_alg».proof.Proof.LibConsts

namespace Cert.LibBnVar

open Idealize.ShloMosaic
open Cert.LibFinite
open scoped BigOperators

/-- The mean: the sum over the rows divided by the row count. -/
noncomputable abbrev mean {n : Nat} (x : Fin n → EReal) (D : EReal) : EReal := Ideal.div (∑ r, x r) D

/-- The kernel's variance: mean of squares minus squared mean. -/
noncomputable abbrev varK {n : Nat} (x : Fin n → EReal) (D : EReal) : EReal :=
  Ideal.div (∑ r, x r * x r) D - (Ideal.div (∑ r, x r) D) * (Ideal.div (∑ r, x r) D)

/-- The reference's variance: mean of the squared deviations from the mean. -/
noncomputable abbrev varR {n : Nat} (x : Fin n → EReal) (D : EReal) : EReal :=
  Ideal.div (∑ r, (x r - Ideal.div (∑ r, x r) D) * (x r - Ideal.div (∑ r, x r) D)) D

section Real

variable {n : Nat} (y : Fin n → ℝ)

/-- The identity in ℝ. -/
theorem real_var_eq (hn : (n : ℝ) ≠ 0) :
    (∑ r, y r * y r) / (n : ℝ) - ((∑ r, y r) / (n : ℝ)) * ((∑ r, y r) / (n : ℝ))
      = (∑ r, (y r - (∑ r, y r) / (n : ℝ)) * (y r - (∑ r, y r) / (n : ℝ))) / (n : ℝ) := by
  set m : ℝ := (∑ r, y r) / (n : ℝ) with hm
  have hS : (∑ r, y r) = m * (n : ℝ) := by rw [hm]; field_simp
  have hterm : ∀ r, (y r - m) * (y r - m) = y r * y r - 2 * m * y r + m * m := fun r => by ring
  have key : (∑ r, (y r - m) * (y r - m)) = (∑ r, y r * y r) - 2 * m * (∑ r, y r) + (n : ℝ) * (m * m) := by
    simp only [hterm, Finset.sum_add_distrib, Finset.sum_sub_distrib, ← Finset.mul_sum, Finset.sum_const,
      Finset.card_univ, Fintype.card_fin, nsmul_eq_mul]
    ring
  rw [key, hS]
  field_simp
  ring

/-- The real mean of squared deviations is nonnegative. -/
theorem real_varR_nonneg :
    0 ≤ (∑ r, (y r - (∑ r, y r) / (n : ℝ)) * (y r - (∑ r, y r) / (n : ℝ))) / (n : ℝ) :=
  div_nonneg (Finset.sum_nonneg fun r _ => mul_self_nonneg _) (Nat.cast_nonneg n)

end Real

section Coe

variable {n : Nat} (y : Fin n → ℝ)

/-- The mean of real values is the real mean. -/
theorem mean_coe (hn : (n : ℝ) ≠ 0) :
    Ideal.div (∑ r, ((y r : ℝ) : EReal)) ((n : ℝ) : EReal) = (((∑ r, y r) / (n : ℝ) : ℝ) : EReal) := by
  rw [← coe_sum, div_coe_coe _ hn]

/-- The kernel's variance of real values is a real number. -/
theorem varK_coe (hn : (n : ℝ) ≠ 0) :
    varK (fun r => ((y r : ℝ) : EReal)) ((n : ℝ) : EReal)
      = (((∑ r, y r * y r) / (n : ℝ) - ((∑ r, y r) / (n : ℝ)) * ((∑ r, y r) / (n : ℝ)) : ℝ) : EReal) := by
  show Ideal.div (∑ r, ((y r : ℝ) : EReal) * ((y r : ℝ) : EReal)) _ - Ideal.div (∑ r, ((y r : ℝ) : EReal)) _ * Ideal.div (∑ r, ((y r : ℝ) : EReal)) _ = _
  rw [mean_coe y hn]
  have h2 : (∑ r, ((y r : ℝ) : EReal) * ((y r : ℝ) : EReal)) = (((∑ r, y r * y r : ℝ)) : EReal) := by
    rw [coe_sum]; exact Finset.sum_congr rfl fun r _ => (EReal.coe_mul _ _).symm
  rw [h2, div_coe_coe _ hn, ← EReal.coe_mul, ← EReal.coe_sub]

/-- The reference's variance of real values is a real number. -/
theorem varR_coe (hn : (n : ℝ) ≠ 0) :
    varR (fun r => ((y r : ℝ) : EReal)) ((n : ℝ) : EReal)
      = (((∑ r, (y r - (∑ r, y r) / (n : ℝ)) * (y r - (∑ r, y r) / (n : ℝ))) / (n : ℝ) : ℝ) : EReal) := by
  show Ideal.div (∑ r, (((y r : ℝ) : EReal) - Ideal.div (∑ r, ((y r : ℝ) : EReal)) _) * (((y r : ℝ) : EReal) - Ideal.div (∑ r, ((y r : ℝ) : EReal)) _)) _ = _
  rw [mean_coe y hn]
  have h2 : (∑ r, (((y r : ℝ) : EReal) - (((∑ r, y r) / (n : ℝ) : ℝ) : EReal)) * (((y r : ℝ) : EReal) - (((∑ r, y r) / (n : ℝ) : ℝ) : EReal)))
      = (((∑ r, (y r - (∑ r, y r) / (n : ℝ)) * (y r - (∑ r, y r) / (n : ℝ)) : ℝ)) : EReal) := by
    rw [coe_sum]; exact Finset.sum_congr rfl fun r _ => by rw [← EReal.coe_sub, ← EReal.coe_mul]
  rw [h2, div_coe_coe _ hn]

end Coe

variable {n : Nat} {x : Fin n → EReal} {D : EReal}

/-- Finite values are the coercions of their real parts, as a function. -/
theorem eq_coe_toReal (hx : ∀ r, IsFin (x r)) : x = fun r => (((x r).toReal : ℝ) : EReal) :=
  funext fun r => (hx r).coe_toReal.symm

/-- THE variance identity: the kernel's form and the reference's are one value at finite inputs. -/
theorem var_eq (hn : (n : ℝ) ≠ 0) (hx : ∀ r, IsFin (x r)) (hD : D = ((n : ℝ) : EReal)) : varK x D = varR x D := by
  subst hD
  rw [eq_coe_toReal hx, varK_coe _ hn, varR_coe _ hn, real_var_eq _ hn]

/-- The reference's variance is nonnegative. -/
theorem varR_nonneg (hn : (n : ℝ) ≠ 0) (hx : ∀ r, IsFin (x r)) (hD : D = ((n : ℝ) : EReal)) : 0 ≤ varR x D := by
  subst hD
  rw [eq_coe_toReal hx, varR_coe _ hn]
  exact EReal.coe_nonneg.mpr (real_varR_nonneg _)

/-- The reference's variance is finite. -/
theorem varR_fin (hn : (n : ℝ) ≠ 0) (hx : ∀ r, IsFin (x r)) (hD : D = ((n : ℝ) : EReal)) : IsFin (varR x D) := by
  subst hD
  rw [eq_coe_toReal hx, varR_coe _ hn]
  exact isFin_coe _

/-- So is the kernel's, and it is nonnegative: it is the same value. -/
theorem varK_nonneg (hn : (n : ℝ) ≠ 0) (hx : ∀ r, IsFin (x r)) (hD : D = ((n : ℝ) : EReal)) : 0 ≤ varK x D := by
  rw [var_eq hn hx hD]; exact varR_nonneg hn hx hD

theorem varK_fin (hn : (n : ℝ) ≠ 0) (hx : ∀ r, IsFin (x r)) (hD : D = ((n : ℝ) : EReal)) : IsFin (varK x D) := by
  rw [var_eq hn hx hD]; exact varR_fin hn hx hD

/-- The mean is finite. -/
theorem mean_fin (hn : (n : ℝ) ≠ 0) (hx : ∀ r, IsFin (x r)) (hD : D = ((n : ℝ) : EReal)) :
    IsFin (Ideal.div (∑ r, x r) D) := by
  subst hD
  rw [eq_coe_toReal hx, mean_coe _ hn]
  exact isFin_coe _

/-! ### At fifty thousand rows, the divisor spelled as the program's literal `50000.0` -/

theorem n50000_ne : ((50000 : Nat) : ℝ) ≠ 0 := by norm_num

theorem D50000 : Ideal.ofBits .f32 0x47435000#32 = (((50000 : Nat) : ℝ) : EReal) := by
  rw [Cert.LibConsts.ofBits_50000]; norm_num

variable {z : Fin 50000 → EReal}

theorem var_eq_50000 (hz : ∀ r, IsFin (z r)) :
    Ideal.div (∑ r, z r * z r) (Ideal.ofBits .f32 0x47435000#32)
        - (Ideal.div (∑ r, z r) (Ideal.ofBits .f32 0x47435000#32)) * (Ideal.div (∑ r, z r) (Ideal.ofBits .f32 0x47435000#32))
      = Ideal.div (∑ r, (z r - Ideal.div (∑ r, z r) (Ideal.ofBits .f32 0x47435000#32))
          * (z r - Ideal.div (∑ r, z r) (Ideal.ofBits .f32 0x47435000#32))) (Ideal.ofBits .f32 0x47435000#32) :=
  var_eq n50000_ne hz D50000

theorem varR_nonneg_50000 (hz : ∀ r, IsFin (z r)) :
    0 ≤ Ideal.div (∑ r, (z r - Ideal.div (∑ r, z r) (Ideal.ofBits .f32 0x47435000#32))
          * (z r - Ideal.div (∑ r, z r) (Ideal.ofBits .f32 0x47435000#32))) (Ideal.ofBits .f32 0x47435000#32) :=
  varR_nonneg n50000_ne hz D50000

theorem varR_fin_50000 (hz : ∀ r, IsFin (z r)) :
    IsFin (Ideal.div (∑ r, (z r - Ideal.div (∑ r, z r) (Ideal.ofBits .f32 0x47435000#32))
          * (z r - Ideal.div (∑ r, z r) (Ideal.ofBits .f32 0x47435000#32))) (Ideal.ofBits .f32 0x47435000#32)) :=
  varR_fin n50000_ne hz D50000

theorem mean_fin_50000 (hz : ∀ r, IsFin (z r)) : IsFin (Ideal.div (∑ r, z r) (Ideal.ofBits .f32 0x47435000#32)) :=
  mean_fin n50000_ne hz D50000

end Cert.LibBnVar
-- ==== Proof.LibTwoBranchBn.lean ====
/- A two-branch rectified linear layer followed by batch normalisation over the rows, on the extended reals, for
   any extents. With H, X of n rows and k columns, weights W, Wr of k rows and d columns and bias rows b, br,
       y (r, c) = max (Σ_j H (r, j) · W (j, c) + b c, 0) + max (Σ_j X (r, j) · Wr (j, c) + br c, 0),
   the column mean is m c = (Σ_r y (r, c)) / D, and the normalised output is
       ((y (r, c) − m c) · rsqrt (v c + e)) · g c + β c
   for a column variance v. Two spellings of v are in use: the mean of the squares less the squared mean, and the mean
   of the squared deviations from the mean. At finite y and with D the row count they are one number (the variance
   identity), so the two outputs are one function. y is finite when H, X, W, Wr, b and br are. -/
import Idealize.ShloMosaic.PureOps.Ideal
import proofs.«117146_j44933947850910_1_alg».proof.Proof.LibFinite
import proofs.«117146_j44933947850910_1_alg».proof.Proof.LibConsts
import proofs.«117146_j44933947850910_1_alg».proof.Proof.LibBnVar

noncomputable section

namespace Cert.LibTwoBranchBn

open Idealize.ShloMosaic
open Cert.LibFinite
open scoped BigOperators

variable {n d k : Nat}

/-- The layer: two affine maps of a row, each rectified, added. -/
def layer (H X : Fin n → Fin k → EReal) (W Wr : Fin k → Fin d → EReal) (b br : Fin d → EReal) (r : Fin n) (c : Fin d) :
    EReal :=
  max ((∑ j, H r j * W j c) + b c) 0 + max ((∑ j, X r j * Wr j c) + br c) 0

/-- The mean of a column: its sum over the rows divided by D. -/
def colMean (D : EReal) (y : Fin n → Fin d → EReal) (c : Fin d) : EReal := Ideal.div (∑ r, y r c) D

/-- The column's variance as the mean of the squares less the squared mean. -/
def varSq (D : EReal) (y : Fin n → Fin d → EReal) (c : Fin d) : EReal :=
  Ideal.div (∑ r, y r c * y r c) D - colMean D y c * colMean D y c

/-- The column's variance as the mean of the squared deviations from the mean. -/
def varDev (D : EReal) (y : Fin n → Fin d → EReal) (c : Fin d) : EReal :=
  Ideal.div (∑ r, (y r c - colMean D y c) * (y r c - colMean D y c)) D

/-- The normalised, scaled and shifted output for a given column variance v. -/
def bn (D e : EReal) (v : Fin d → EReal) (y : Fin n → Fin d → EReal) (g be : Fin d → EReal) (r : Fin n) (c : Fin d) :
    EReal :=
  ((y r c - colMean D y c) * Ideal.rsqrt (v c + e)) * g c + be c

variable {D e : EReal} {y : Fin n → Fin d → EReal}

/-- At finite entries, and with D the row count, the two variances are one number. -/
theorem varSq_eq_varDev (hn : (n : ℝ) ≠ 0) (hD : D = ((n : ℝ) : EReal)) (hy : ∀ r c, IsFin (y r c)) (c : Fin d) :
    varSq D y c = varDev D y c :=
  Cert.LibBnVar.var_eq (x := fun r => y r c) hn (fun r => hy r c) hD

/-- So the two outputs are one function. -/
theorem bn_varSq_eq_bn_varDev (hn : (n : ℝ) ≠ 0) (hD : D = ((n : ℝ) : EReal)) (hy : ∀ r c, IsFin (y r c))
    (g be : Fin d → EReal) : bn D e (varSq D y) y g be = bn D e (varDev D y) y g be := by
  funext r c
  unfold bn
  rw [varSq_eq_varDev hn hD hy c]

/-- The layer's entries are finite when its operands' are. -/
theorem layer_fin {H X : Fin n → Fin k → EReal} {W Wr : Fin k → Fin d → EReal} {b br : Fin d → EReal}
    (hH : ∀ r j, IsFin (H r j)) (hX : ∀ r j, IsFin (X r j)) (hW : ∀ j c, IsFin (W j c)) (hWr : ∀ j c, IsFin (Wr j c))
    (hb : ∀ c, IsFin (b c)) (hbr : ∀ c, IsFin (br c)) (r : Fin n) (c : Fin d) : IsFin (layer H X W Wr b br r c) :=
  (((isFin_sum_univ _ fun j => (hH r j).mul (hW j c)).add (hb c)).max isFin_zero).add
    (((isFin_sum_univ _ fun j => (hX r j).mul (hWr j c)).add (hbr c)).max isFin_zero)

/-! ### At a hundred thousand rows, the divisor spelled as the f32 word of 100000.0 -/

/-- The f32 word 0x47C35000 (exponent 143, fraction 0x435000) denotes 100000. -/
theorem ofBits_100000 : Ideal.ofBits .f32 0x47C35000#32 = (((100000 : Nat) : ℝ) : EReal) := by
  simp [Ideal.ofBits, Ideal.ieee, -EReal.coe_mul]; norm_num

theorem n100000_ne : ((100000 : Nat) : ℝ) ≠ 0 := by norm_num

theorem bn_eq_100000 {y : Fin 100000 → Fin d → EReal} (hy : ∀ r c, IsFin (y r c)) (g be : Fin d → EReal) :
    bn (Ideal.ofBits .f32 0x47C35000#32) e (varSq (Ideal.ofBits .f32 0x47C35000#32) y) y g be
      = bn (Ideal.ofBits .f32 0x47C35000#32) e (varDev (Ideal.ofBits .f32 0x47C35000#32) y) y g be :=
  bn_varSq_eq_bn_varDev n100000_ne ofBits_100000 hy g be

end Cert.LibTwoBranchBn

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibRunSums.lean ====
/-
  Two ways of regrouping a finite sum, in any commutative additive monoid (so on the extended reals, where addition is
  commutative and associative at the infinities too, neither needs a finiteness hypothesis).
    * A sum over n = B·C consecutive terms is the sum over its B runs of C terms: term x = b·C + c belongs to run b.
    * Runs added one after another starting from the first, ((g 0 + g 1) + g 2) + …, are the sum of the runs.
  The terms are indexed by natural numbers, so that no statement carries a bound inside an index.
-/
import Mathlib.Data.Fintype.BigOperators
import Mathlib.Logic.Equiv.Fin.Basic
import Mathlib.Algebra.BigOperators.Fin

namespace Cert.Lib

variable {β : Type} [AddCommMonoid β]

/-- A sum over n = B·C terms is the sum over the B runs of the sum of the C terms of each run. -/
theorem sum_eq_sum_runs (B C n : ℕ) (hn : n = B * C) (f : ℕ → β) :
    ∑ x : Fin n, f x.val = ∑ b : Fin B, ∑ c : Fin C, f (b.val * C + c.val) := by
  subst hn
  rw [← Fintype.sum_prod_type' (fun (b : Fin B) (c : Fin C) => f (b.val * C + c.val))]
  refine (Fintype.sum_equiv finProdFinEquiv (fun p : Fin B × Fin C => f (p.1.val * C + p.2.val)) (fun x => f x.val)
    fun p => ?_).symm
  show f (p.1.val * C + p.2.val) = f (p.2.val + C * p.1.val)
  rw [Nat.add_comm, Nat.mul_comm]

/-- The runs added one after another, from the first: g 0, then + g 1, then + g 2, … -/
def accRuns (g : ℕ → β) : ℕ → β
  | 0 => g 0
  | k + 1 => accRuns g k + g (k + 1)

theorem accRuns_zero (g : ℕ → β) : accRuns g 0 = g 0 := rfl

theorem accRuns_succ (g : ℕ → β) (k : ℕ) : accRuns g (k + 1) = accRuns g k + g (k + 1) := rfl

/-- After run k the accumulated value is the sum of runs 0 … k. -/
theorem accRuns_eq_sum_range (g : ℕ → β) : ∀ k : ℕ, accRuns g k = ∑ b ∈ Finset.range (k + 1), g b
  | 0 => by rw [accRuns_zero, Finset.sum_range_one]
  | k + 1 => by rw [accRuns_succ, accRuns_eq_sum_range g k, Finset.sum_range_succ g (k + 1)]

theorem accRuns_eq_sum_fin (g : ℕ → β) (k : ℕ) : accRuns g k = ∑ b : Fin (k + 1), g b.val := by
  rw [accRuns_eq_sum_range, Fin.sum_univ_eq_sum_range (fun i => g i)]

/-- A sum over n = (k+1)·C terms accumulated run by run: after the last run it is the whole sum. -/
theorem accRuns_runs_eq_sum (k C n : ℕ) (hn : n = (k + 1) * C) (f : ℕ → β) :
    accRuns (fun b => ∑ c : Fin C, f (b * C + c.val)) k = ∑ x : Fin n, f x.val := by
  rw [accRuns_eq_sum_fin, sum_eq_sum_runs (k + 1) C n hn f]

end Cert.Lib
-- ==== Proof.KRegion0.lean ====
/- What the first kernel leaves in its three output arrays. Grid point t computes rows 5000·t … 5000·t + 4999 of
       y (r, c) = max (Σ_j H (r, j) · W (j, c) + b c, 0) + max (Σ_j X (r, j) · Wr (j, c) + br c, 0)
   (the products taken of operands first narrowed to bf16, which changes nothing on the extended reals), writes them to
   block t of the first output, and adds the block's column sums of y and of y² to two one-row accumulators, which the
   first point sets to zero and only the last point's write-back leaves in their arrays. So the first output is y, and
   the other two are the column sums of y and of y² over all 100000 rows, the rows taken in 20 runs of 5000. -/
import proofs.«117146_j44933947850910_1_alg».proof.Proof.Gen.KernelIdeal.Frame
import proofs.«117146_j44933947850910_1_alg».proof.Proof.LibTwoBranchBn
import proofs.«117146_j44933947850910_1_alg».proof.Proof.LibDotSum
import proofs.«117146_j44933947850910_1_alg».proof.Proof.LibRunSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## What each control case leaves in the three output blocks, as the body's arithmetic of the blocks it loaded -/

section Pieces
variable {F : FTy → Type} [FloatOps F]

theorem hz : (![0, 0] : Fin 2 → Nat) = fun _ => 0 := funext fun a => by fin_cases a <;> rfl

/-- Every point leaves the layer's block in the first output's block (first point). -/
theorem out_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 hc0 x0 x1 x2 x3 x4 x5 = k0_pay4 x0 x2 x3 x1 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg1.read_unread, harg2.read_unread, harg3.read_unread, harg4.read_unread,
    harg5.read_unread, harg6.read_unread, View.ld_unit_zero (S := S5000x128) hz, View.ld_unit_zero (S := S128x128) hz,
    View.ld_unit_zero (S := S1x128) hz]

/-- Every point leaves the layer's block in the first output's block (later points). -/
theorem out_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_6 c i arg1 harg1 arg2 harg2 arg3 harg3 arg4 harg4 arg5 harg5 arg6 harg6 arg7 harg7 arg8 harg8 arg9 harg9 hc0 x0 x1 x2 x3 x4 x5 xo7 xo8 = k0_pay4 x0 x2 x3 x1 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread,
    harg5.read_unread, harg6.read_unread, View.ld_unit_zero (S := S5000x128) hz, View.ld_unit_zero (S := S128x128) hz,
    View.ld_unit_zero (S := S1x128) hz]

/-- The first point stores the zero row and then the zero row plus the block's column sums. -/
theorem out_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_7 c i arg1 harg1 arg2 harg2 arg3 harg3 arg4 harg4 arg5 harg5 arg6 harg6 arg7 harg7 arg8 harg8 arg9 harg9 hc0 x0 x1 x2 x3 x4 x5 = k0_pay5 x0 x2 x3 x1 x4 x5 (k0_pay2 (F := F)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz]
  simp only [View.readAt_eq_ld, harg1.read_unread, harg2.read_unread, harg3.read_unread, harg4.read_unread,
    harg5.read_unread, harg6.read_unread, View.ld_unit_zero (S := S5000x128) hz, View.ld_unit_zero (S := S128x128) hz,
    View.ld_unit_zero (S := S1x128) hz, View.readCov_unit_zero (S := S1x128) _ hz]

/-- A later point stores what the block held plus the block's column sums. -/
theorem out_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_7 c i arg1 harg1 arg2 harg2 arg3 harg3 arg4 harg4 arg5 harg5 arg6 harg6 arg7 harg7 arg8 harg8 arg9 harg9 hc0 x0 x1 x2 x3 x4 x5 xo7 xo8 = k0_pay5 x0 x2 x3 x1 x4 x5 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg8.read_unread, harg9.read_unread,
    View.ld_unit_zero (S := S5000x128) hz, View.ld_unit_zero (S := S128x128) hz,
    View.ld_unit_zero (S := S1x128) hz]

/-- The first point stores the zero row and then the zero row plus the column sums of the block's squares. -/
theorem out_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond0_0 i) (x0 : Vec F S5000x128 .f32) (x1 : Vec F S5000x128 .f32) (x2 : Vec F S128x128 .f32) (x3 : Vec F S1x128 .f32) (x4 : Vec F S128x128 .f32) (x5 : Vec F S1x128 .f32) :
    out0_A_8 c i arg1 harg1 arg2 harg2 arg3 harg3 arg4 harg4 arg5 harg5 arg6 harg6 arg7 harg7 arg8 harg8 arg9 harg9 hc0 x0 x1 x2 x3 x4 x5 = k0_pay1 (k0_pay4 x0 x2 x3 x1 x4 x5) (k0_pay3 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S1x128) hz]
  simp only [View.readAt_eq_ld, harg1.read_unread, harg2.read_unread, harg3.read_unread, harg4.read_unread,
    harg5.read_unread, harg6.read_unread, View.ld_unit_zero (S := S5000x128) hz, View.ld_unit_zero (S := S128x128) hz,
    View.ld_unit_zero (S := S1x128) hz, View.readCov_unit_zero (S := S1x128) _ hz]

/-- A later point stores what the block held plus the column sums of the block's squares. -/
theorem out_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (x0 : Vec F S5000x128 .f32) (x1 : Vec F S5000x128 .f32) (x2 : Vec F S128x128 .f32) (x3 : Vec F S1x128 .f32) (x4 : Vec F S128x128 .f32) (x5 : Vec F S1x128 .f32) (xo7 xo8 : Vec F S1x128 .f32) :
    out0_B_8 c i arg1 harg1 arg2 harg2 arg3 harg3 arg4 harg4 arg5 harg5 arg6 harg6 arg7 harg7 arg8 harg8 arg9 harg9 hc0 x0 x1 x2 x3 x4 x5 xo7 xo8 = k0_pay1 (k0_pay4 x0 x2 x3 x1 x4 x5) xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo7 xo8)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg8.read_unread, harg9.read_unread,
    View.ld_unit_zero (S := S5000x128) hz, View.ld_unit_zero (S := S128x128) hz,
    View.ld_unit_zero (S := S1x128) hz]

end Pieces

/-! ## The body's arithmetic read at an entry, on the extended reals -/

section Payloads

/-- One branch of the layer at row p and column q of a block: the row of the left operand against the column of the
    weights, plus the bias, rectified. Narrowing an operand to a shorter format changes no extended real. -/
theorem branch_apply (h : FVec Ideal S5000x128 .f32) (w : FVec Ideal S128x128 .f32) (b : FVec Ideal S1x128 .f32)
    (hlt : FTy.bits .bf16 < FTy.bits .f32) (hc2 : S1x128.ShapeCasts S1x128)
    (hb : S1x128.Broadcasts S5000x128) (p : Fin 5000) (q : Fin 128) :
    maximumf (addf (matmul dot_S5000x128_S128x128_S5000x128_1_0_0_1_n_n none
          (truncf .bf16 h hlt) (truncf .bf16 w hlt) (constant S5000x128 .f32 0x00000000#32))
        (broadcastTo S5000x128 (shapeCast S1x128 b hc2) hb))
      (broadcast S5000x128 (Scalar.ofBits (F := Ideal) .f32 0x00000000#32)) (ix2 p q)
      = max ((∑ j : Fin 128, h (ix2 p j) * w (ix2 j q)) + b (ix2 (0 : Fin 1) q)) 0 := by
  rw [shapeCast_self, maximumf_apply, addf_apply, broadcast_apply, broadcastTo_1b_ab_apply,
    Cert.Lib.matmul_rc_apply dot_S5000x128_S128x128_S5000x128_1_0_0_1_n_n rfl rfl rfl rfl rfl rfl]
  refine congrArg₂ max ?_ Ideal.ofBits_zero_f32
  rfl

/-- The layer's block at (p, q). -/
theorem pay4_apply (h x : FVec Ideal S5000x128 .f32) (w wr : FVec Ideal S128x128 .f32) (b br : FVec Ideal S1x128 .f32)
    (p : Fin 5000) (q : Fin 128) :
    k0_pay4 (F := Ideal) h w b x wr br (ix2 p q)
      = Cert.LibTwoBranchBn.layer (fun r j => h (ix2 r j)) (fun r j => x (ix2 r j)) (fun j q => w (ix2 j q))
          (fun j q => wr (ix2 j q)) (fun q => b (ix2 (0 : Fin 1) q)) (fun q => br (ix2 (0 : Fin 1) q)) p q := by
  unfold k0_pay4 Cert.LibTwoBranchBn.layer
  dsimp only
  rw [addf_apply, shapeCast_self h, branch_apply h w b, branch_apply x wr br]

/-- The sum of a block's rows, cast to one row, at column q. -/
theorem colsum_apply (src : FVec Ideal S5000x128 .f32) (h : S5000x128.Reduces [0] S128)
    (hφ : FKind.Formats .f32) (hacc : (0x00000000#32 : BitVec 32) = FKind.add.neutral .f32 hφ)
    (hc : S128.ShapeCasts S1x128) (q : Fin 128) :
    shapeCast S1x128 (multiReduction .add [0] S128 src 0x00000000#32 h hφ hacc) hc (ix2 (0 : Fin 1) q)
      = ∑ p : Fin 5000, src (ix2 p q) := by
  refine (shapeCast_a_1a_apply _ hc (0 : Fin 1) q).trans ?_
  refine (Ideal.multiReduction_add_single src 0x00000000#32 h hφ hacc (ix1 q)).trans ?_
  show ∑ p : Fin 5000, src (h.lift (ix1 q) p) = _
  refine Finset.sum_congr rfl fun p _ => congrArg src ?_
  funext a
  apply Fin.ext
  match a with
  | ⟨0, _⟩ => rfl
  | ⟨1, _⟩ => rfl

/-- The running column sums after a point: what the row held plus the block's column sums. -/
theorem pay5_apply (h x : FVec Ideal S5000x128 .f32) (w wr : FVec Ideal S128x128 .f32) (b br : FVec Ideal S1x128 .f32)
    (old : FVec Ideal S1x128 .f32) (q : Fin 128) :
    k0_pay5 (F := Ideal) h w b x wr br old (ix2 (0 : Fin 1) q)
      = old (ix2 (0 : Fin 1) q) + ∑ p : Fin 5000, k0_pay4 (F := Ideal) h w b x wr br (ix2 p q) := by
  unfold k0_pay5
  dsimp only
  rw [addf_apply, shapeCast_self]
  exact congrArg (old (ix2 (0 : Fin 1) q) + ·) (colsum_apply _ _ _ _ _ q)

/-- The running column sums of squares after a point. -/
theorem pay1_apply (y : FVec Ideal S5000x128 .f32) (old : FVec Ideal S1x128 .f32) (q : Fin 128) :
    k0_pay1 (F := Ideal) y old (ix2 (0 : Fin 1) q)
      = old (ix2 (0 : Fin 1) q) + ∑ p : Fin 5000, y (ix2 p q) * y (ix2 p q) := by
  unfold k0_pay1
  dsimp only
  rw [addf_apply, shapeCast_self]
  exact congrArg (old (ix2 (0 : Fin 1) q) + ·) ((colsum_apply (mulf y y) _ _ _ _ q).trans rfl)

/-- The rows the first point stores first are zero. -/
theorem pay2_apply (i : S1x128.Idx) : k0_pay2 (F := Ideal) i = 0 := Ideal.ofBits_zero_f32
theorem pay3_apply (i : S1x128.Idx) : k0_pay3 (F := Ideal) i = 0 := Ideal.ofBits_zero_f32

end Payloads

variable (V : (c : Dev nD) → (b : Ref sig .tc) → Buf (Elt Ideal) ((c : Thread nD τ).loc b))

/-- The region's operand arrays as it finds them. -/
abbrev hArr (c : Dev nD) : FVec Ideal S100000x128 .f32 := V c main_v28
abbrev xArr (c : Dev nD) : FVec Ideal S100000x128 .f32 := V c main_arg0
abbrev wArr (c : Dev nD) : FVec Ideal S128x128 .f32 := V c main_arg1
abbrev bArr (c : Dev nD) : FVec Ideal S1x128 .f32 := V c main_v29
abbrev wrArr (c : Dev nD) : FVec Ideal S128x128 .f32 := V c main_arg3
abbrev brArr (c : Dev nD) : FVec Ideal S1x128 .f32 := V c main_v30

/-- The layer's value at row r and column q, of those arrays. -/
def Y (c : Dev nD) : Fin 100000 → Fin 128 → EReal :=
  Cert.LibTwoBranchBn.layer (fun r j => hArr V c (ix2 r j)) (fun r j => xArr V c (ix2 r j))
    (fun j q => wArr V c (ix2 j q)) (fun j q => wrArr V c (ix2 j q))
    (fun q => bArr V c (ix2 (0 : Fin 1) q)) (fun q => brArr V c (ix2 (0 : Fin 1) q))

/-! ## The windows' blocks, read off the arrays -/

/-- Where each window's block sits at point t: block row t for the two row-blocked operands and the first output,
    the one block there is for every other window. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The six operand blocks a point loads, each at its literal shape. -/
abbrev hBlk (c : Dev nD) (t : Fin cfg0.N) : FVec Ideal S5000x128 .f32 := iblk0 V c 0 t
abbrev xBlk (c : Dev nD) (t : Fin cfg0.N) : FVec Ideal S5000x128 .f32 := iblk0 V c 1 t
abbrev wBlk (c : Dev nD) (t : Fin cfg0.N) : FVec Ideal S128x128 .f32 := iblk0 V c 2 t
abbrev bBlk (c : Dev nD) (t : Fin cfg0.N) : FVec Ideal S1x128 .f32 := iblk0 V c 3 t
abbrev wrBlk (c : Dev nD) (t : Fin cfg0.N) : FVec Ideal S128x128 .f32 := iblk0 V c 4 t
abbrev brBlk (c : Dev nD) (t : Fin cfg0.N) : FVec Ideal S1x128 .f32 := iblk0 V c 5 t

/-- Row p of the block at point t is row 5000·t + p of the array. -/
def row (t : Fin cfg0.N) (p : Fin 5000) : Fin 100000 :=
  ⟨t.val * 5000 + p.val, by have hN : t.val < 20 := lt_of_lt_of_eq t.isLt (show cfg0.N = 20 from N_0); omega⟩

theorem hBlk_apply (c : Dev nD) (t : Fin cfg0.N) (p : Fin 5000) (j : Fin 128) :
    hBlk V c t (ix2 p j) = hArr V c (ix2 (row t p) j) := by
  obtain ⟨e0, e1⟩ := (idx_facts t).1
  show ((cfg0.win 0).blk t).view.read (Elt Ideal) (V c (Pipeline.arrRef spec0 0)) (ix2 p j) = _
  rw [View.read_apply]
  show V c main_v28 _ = V c main_v28 _
  refine congrArg (V c main_v28) (funext fun ax => Fin.ext ?_)
  match ax with
  | ⟨0, _⟩ => show win0_0.index t (0 : Fin 2) * 5000 + 1 * p.val = t.val * 5000 + p.val; rw [e0]; omega
  | ⟨1, _⟩ => show win0_0.index t (1 : Fin 2) * 128 + 1 * j.val = j.val; rw [e1]; omega

theorem xBlk_apply (c : Dev nD) (t : Fin cfg0.N) (p : Fin 5000) (j : Fin 128) :
    xBlk V c t (ix2 p j) = xArr V c (ix2 (row t p) j) := by
  obtain ⟨e0, e1⟩ := (idx_facts t).2.1
  show ((cfg0.win 1).blk t).view.read (Elt Ideal) (V c (Pipeline.arrRef spec0 1)) (ix2 p j) = _
  rw [View.read_apply]
  show V c main_arg0 _ = V c main_arg0 _
  refine congrArg (V c main_arg0) (funext fun ax => Fin.ext ?_)
  match ax with
  | ⟨0, _⟩ => show win0_1.index t (0 : Fin 2) * 5000 + 1 * p.val = t.val * 5000 + p.val; rw [e0]; omega
  | ⟨1, _⟩ => show win0_1.index t (1 : Fin 2) * 128 + 1 * j.val = j.val; rw [e1]; omega

theorem wBlk_apply (c : Dev nD) (t : Fin cfg0.N) (j : Fin 128) (q : Fin 128) :
    wBlk V c t (ix2 j q) = wArr V c (ix2 j q) := by
  obtain ⟨e0, e1⟩ := (idx_facts t).2.2.1
  show ((cfg0.win 2).blk t).view.read (Elt Ideal) (V c (Pipeline.arrRef spec0 2)) (ix2 j q) = _
  rw [View.read_apply]
  show V c main_arg1 _ = V c main_arg1 _
  refine congrArg (V c main_arg1) (funext fun ax => Fin.ext ?_)
  match ax with
  | ⟨0, _⟩ => show win0_2.index t (0 : Fin 2) * 128 + 1 * j.val = j.val; rw [e0]; omega
  | ⟨1, _⟩ => show win0_2.index t (1 : Fin 2) * 128 + 1 * q.val = q.val; rw [e1]; omega

theorem bBlk_apply (c : Dev nD) (t : Fin cfg0.N) (u : Fin 1) (q : Fin 128) :
    bBlk V c t (ix2 u q) = bArr V c (ix2 u q) := by
  obtain ⟨e0, e1⟩ := (idx_facts t).2.2.2.1
  show ((cfg0.win 3).blk t).view.read (Elt Ideal) (V c (Pipeline.arrRef spec0 3)) (ix2 u q) = _
  rw [View.read_apply]
  show V c main_v29 _ = V c main_v29 _
  refine congrArg (V c main_v29) (funext fun ax => Fin.ext ?_)
  match ax with
  | ⟨0, _⟩ => show win0_3.index t (0 : Fin 2) * 1 + 1 * u.val = u.val; rw [e0]; omega
  | ⟨1, _⟩ => show win0_3.index t (1 : Fin 2) * 128 + 1 * q.val = q.val; rw [e1]; omega

theorem wrBlk_apply (c : Dev nD) (t : Fin cfg0.N) (j : Fin 128) (q : Fin 128) :
    wrBlk V c t (ix2 j q) = wrArr V c (ix2 j q) := by
  obtain ⟨e0, e1⟩ := (idx_facts t).2.2.2.2.1
  show ((cfg0.win 4).blk t).view.read (Elt Ideal) (V c (Pipeline.arrRef spec0 4)) (ix2 j q) = _
  rw [View.read_apply]
  show V c main_arg3 _ = V c main_arg3 _
  refine congrArg (V c main_arg3) (funext fun ax => Fin.ext ?_)
  match ax with
  | ⟨0, _⟩ => show win0_4.index t (0 : Fin 2) * 128 + 1 * j.val = j.val; rw [e0]; omega
  | ⟨1, _⟩ => show win0_4.index t (1 : Fin 2) * 128 + 1 * q.val = q.val; rw [e1]; omega

theorem brBlk_apply (c : Dev nD) (t : Fin cfg0.N) (u : Fin 1) (q : Fin 128) :
    brBlk V c t (ix2 u q) = brArr V c (ix2 u q) := by
  obtain ⟨e0, e1⟩ := (idx_facts t).2.2.2.2.2.1
  show ((cfg0.win 5).blk t).view.read (Elt Ideal) (V c (Pipeline.arrRef spec0 5)) (ix2 u q) = _
  rw [View.read_apply]
  show V c main_v30 _ = V c main_v30 _
  refine congrArg (V c main_v30) (funext fun ax => Fin.ext ?_)
  match ax with
  | ⟨0, _⟩ => show win0_5.index t (0 : Fin 2) * 1 + 1 * u.val = u.val; rw [e0]; omega
  | ⟨1, _⟩ => show win0_5.index t (1 : Fin 2) * 128 + 1 * q.val = q.val; rw [e1]; omega

/-- So the layer's block at point t, at (p, q), is the layer at row 5000·t + p and column q. -/
theorem pay4_blk (c : Dev nD) (t : Fin cfg0.N) (p : Fin 5000) (q : Fin 128) :
    k0_pay4 (F := Ideal) (hBlk V c t) (wBlk V c t) (bBlk V c t) (xBlk V c t) (wrBlk V c t) (brBlk V c t) (ix2 p q) = Y V c (row t p) q := by
  rw [pay4_apply]
  unfold Y Cert.LibTwoBranchBn.layer
  simp only [hBlk_apply, xBlk_apply, wBlk_apply, bBlk_apply, wrBlk_apply, brBlk_apply]

/-! ## What the three outputs' blocks hold after each point -/

/-- After every point the first output's block holds the layer's block. -/
theorem at6 (c : Dev nD) (t : Fin cfg0.N) :
    ((outsAt0 V c t.val t.isLt).1 : FVec Ideal S5000x128 .f32) = k0_pay4 (F := Ideal) (hBlk V c t) (wBlk V c t) (bBlk V c t) (xBlk V c t) (wrBlk V c t) (brBlk V c t) := by
  by_cases h0 : t.val % 20 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- After the first point the second output's block holds the zero row plus the first block's column sums. -/
theorem at7_zero (c : Dev nD) (hn : 0 < cfg0.N) :
    ((outsAt0 V c 0 hn).2.1 : FVec Ideal S1x128 .f32)
      = k0_pay5 (F := Ideal) (hBlk V c ⟨0, hn⟩) (wBlk V c ⟨0, hn⟩) (bBlk V c ⟨0, hn⟩) (xBlk V c ⟨0, hn⟩) (wrBlk V c ⟨0, hn⟩) (brBlk V c ⟨0, hn⟩) (k0_pay2 (F := Ideal)) := by
  rw [outsAt0_A V c ⟨0, hn⟩ rfl]
  dsimp only
  exact out_A_7 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)

/-- After a later point it holds what it held plus that point's block's column sums. -/
theorem at7_succ (c : Dev nD) (n : ℕ) (hn : n + 1 < cfg0.N) :
    ((outsAt0 V c (n + 1) hn).2.1 : FVec Ideal S1x128 .f32)
      = k0_pay5 (F := Ideal) (hBlk V c ⟨n + 1, hn⟩) (wBlk V c ⟨n + 1, hn⟩) (bBlk V c ⟨n + 1, hn⟩) (xBlk V c ⟨n + 1, hn⟩) (wrBlk V c ⟨n + 1, hn⟩) (brBlk V c ⟨n + 1, hn⟩) (outsAt0 V c n (Nat.lt_of_succ_lt hn)).2.1 := by
  have hN : n + 1 < 20 := lt_of_lt_of_eq hn (show cfg0.N = 20 from N_0)
  have hB : ¬(⟨n + 1, hn⟩ : Fin cfg0.N).val % 20 = 0 := by dsimp only; omega
  rw [outsAt0_B V c ⟨n + 1, hn⟩ hB]
  dsimp only
  exact out_B_7 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2

/-- The same two for the third output's block, with the squares. -/
theorem at8_zero (c : Dev nD) (hn : 0 < cfg0.N) :
    ((outsAt0 V c 0 hn).2.2 : FVec Ideal S1x128 .f32)
      = k0_pay1 (F := Ideal) (k0_pay4 (F := Ideal) (hBlk V c ⟨0, hn⟩) (wBlk V c ⟨0, hn⟩) (bBlk V c ⟨0, hn⟩) (xBlk V c ⟨0, hn⟩) (wrBlk V c ⟨0, hn⟩) (brBlk V c ⟨0, hn⟩)) (k0_pay3 (F := Ideal)) := by
  rw [outsAt0_A V c ⟨0, hn⟩ rfl]
  dsimp only
  exact out_A_8 (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)

theorem at8_succ (c : Dev nD) (n : ℕ) (hn : n + 1 < cfg0.N) :
    ((outsAt0 V c (n + 1) hn).2.2 : FVec Ideal S1x128 .f32)
      = k0_pay1 (F := Ideal) (k0_pay4 (F := Ideal) (hBlk V c ⟨n + 1, hn⟩) (wBlk V c ⟨n + 1, hn⟩) (bBlk V c ⟨n + 1, hn⟩) (xBlk V c ⟨n + 1, hn⟩) (wrBlk V c ⟨n + 1, hn⟩) (brBlk V c ⟨n + 1, hn⟩)) (outsAt0 V c n (Nat.lt_of_succ_lt hn)).2.2 := by
  have hN : n + 1 < 20 := lt_of_lt_of_eq hn (show cfg0.N = 20 from N_0)
  have hB : ¬(⟨n + 1, hn⟩ : Fin cfg0.N).val % 20 = 0 := by dsimp only; omega
  rw [outsAt0_B V c ⟨n + 1, hn⟩ hB]
  dsimp only
  exact out_B_8 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 V c n (Nat.lt_of_succ_lt hn)).2.1 (outsAt0 V c n (Nat.lt_of_succ_lt hn)).2.2

/-! ## The layer at natural-number coordinates, and the running sums -/

/-- The layer's entry at natural-number coordinates (zero outside the array, where nothing reads it). -/
def yNat (c : Dev nD) (x k : ℕ) : EReal := if h : x < 100000 ∧ k < 128 then Y V c ⟨x, h.1⟩ ⟨k, h.2⟩ else 0

theorem yNat_eq (c : Dev nD) (r : Fin 100000) (q : Fin 128) : yNat V c r.val q.val = Y V c r q :=
  dif_pos ⟨r.isLt, q.isLt⟩

/-- The first output's block after point t, entry by entry. -/
theorem at6_apply (c : Dev nD) (t : Fin cfg0.N) (y : S5000x128.Idx) :
    ((outsAt0 V c t.val t.isLt).1 : FVec Ideal S5000x128 .f32) y = yNat V c (t.val * 5000 + (y 0).val) (y 1).val := by
  obtain ⟨p, q, rfl⟩ : ∃ (p : Fin 5000) (q : Fin 128), y = ix2 p q := ⟨y 0, y 1, eq_ix2 y⟩
  rw [at6, pay4_blk]
  exact (yNat_eq V c (row t p) q).symm

/-- Column k's sum over the 5000 rows of run b, and its sum of squares. -/
def colRun (c : Dev nD) (k b : ℕ) : EReal := ∑ p : Fin 5000, yNat V c (b * 5000 + p.val) k
def colRunSq (c : Dev nD) (k b : ℕ) : EReal :=
  ∑ p : Fin 5000, yNat V c (b * 5000 + p.val) k * yNat V c (b * 5000 + p.val) k

theorem blkSum_eq (c : Dev nD) (t : Fin cfg0.N) (q : Fin 128) :
    ∑ p : Fin 5000, k0_pay4 (F := Ideal) (hBlk V c t) (wBlk V c t) (bBlk V c t) (xBlk V c t) (wrBlk V c t) (brBlk V c t) (ix2 p q) = colRun V c q.val t.val :=
  Finset.sum_congr rfl fun p _ => (pay4_blk V c t p q).trans (yNat_eq V c (row t p) q).symm

theorem blkSumSq_eq (c : Dev nD) (t : Fin cfg0.N) (q : Fin 128) :
    ∑ p : Fin 5000, k0_pay4 (F := Ideal) (hBlk V c t) (wBlk V c t) (bBlk V c t) (xBlk V c t) (wrBlk V c t) (brBlk V c t) (ix2 p q) * k0_pay4 (F := Ideal) (hBlk V c t) (wBlk V c t) (bBlk V c t) (xBlk V c t) (wrBlk V c t) (brBlk V c t) (ix2 p q)
      = colRunSq V c q.val t.val :=
  Finset.sum_congr rfl fun p _ => by rw [pay4_blk]; exact congrArg (fun z => z * z) (yNat_eq V c (row t p) q).symm

/-- After point n the second output's block holds, in column k, the runs 0 … n added one after another. -/
theorem acc7 (c : Dev nD) (y : S1x128.Idx) : ∀ (n : ℕ) (hn : n < cfg0.N),
    ((outsAt0 V c n hn).2.1 : FVec Ideal S1x128 .f32) y = Cert.Lib.accRuns (colRun V c (y 1).val) n
  | 0, hn => by
    obtain ⟨u, q, rfl⟩ : ∃ (u : Fin 1) (q : Fin 128), y = ix2 u q := ⟨y 0, y 1, eq_ix2 y⟩
    obtain rfl : u = 0 := Subsingleton.elim _ _
    rw [at7_zero, pay5_apply, pay2_apply, zero_add, Cert.Lib.accRuns_zero]
    exact blkSum_eq V c ⟨0, hn⟩ q
  | n + 1, hn => by
    have ih := acc7 c y n (Nat.lt_of_succ_lt hn)
    obtain ⟨u, q, rfl⟩ : ∃ (u : Fin 1) (q : Fin 128), y = ix2 u q := ⟨y 0, y 1, eq_ix2 y⟩
    obtain rfl : u = 0 := Subsingleton.elim _ _
    rw [at7_succ, pay5_apply, ih, Cert.Lib.accRuns_succ]
    exact congrArg (Cert.Lib.accRuns (colRun V c q.val) n + ·) (blkSum_eq V c ⟨n + 1, hn⟩ q)

/-- And the third output's block the runs of squares. -/
theorem acc8 (c : Dev nD) (y : S1x128.Idx) : ∀ (n : ℕ) (hn : n < cfg0.N),
    ((outsAt0 V c n hn).2.2 : FVec Ideal S1x128 .f32) y = Cert.Lib.accRuns (colRunSq V c (y 1).val) n
  | 0, hn => by
    obtain ⟨u, q, rfl⟩ : ∃ (u : Fin 1) (q : Fin 128), y = ix2 u q := ⟨y 0, y 1, eq_ix2 y⟩
    obtain rfl : u = 0 := Subsingleton.elim _ _
    rw [at8_zero, pay1_apply, pay3_apply, zero_add, Cert.Lib.accRuns_zero]
    exact blkSumSq_eq V c ⟨0, hn⟩ q
  | n + 1, hn => by
    have ih := acc8 c y n (Nat.lt_of_succ_lt hn)
    obtain ⟨u, q, rfl⟩ : ∃ (u : Fin 1) (q : Fin 128), y = ix2 u q := ⟨y 0, y 1, eq_ix2 y⟩
    obtain rfl : u = 0 := Subsingleton.elim _ _
    rw [at8_succ, pay1_apply, ih, Cert.Lib.accRuns_succ]
    exact congrArg (Cert.Lib.accRuns (colRunSq V c q.val) n + ·) (blkSumSq_eq V c ⟨n + 1, hn⟩ q)

/-! ## From the blocks to the arrays -/

/-- What the first output's array ends holding: the layer, entry by entry. -/
def G6 (c : Dev nD) : FVec Ideal S100000x128 .f32 := fun i => yNat V c (i 0).val (i 1).val

/-- Every point writes its block of the first output back, and that block is the layer's rows 5000·t … 5000·t + 4999. -/
theorem flushed6_eq (c : Dev nD) (t : Fin cfg0.N) :
    (dat0 V c).flushed 6 t = ((cfg0.win 6).blk t).view.read (Elt Ideal) (G6 V c) := by
  obtain ⟨e0, e1⟩ := (idx_facts t).2.2.2.2.2.2.1
  show (cfg0.win 6).cut (grid0.coords t) ((dat0 V c).after 6 t) = _
  rw [after0_6]
  funext y
  rw [View.read_apply]
  show ((outsAt0 V c t.val t.isLt).1 : FVec Ideal S5000x128 .f32) y = G6 V c (((cfg0.win 6).blk t).view.emb y)
  rw [at6_apply]
  refine congrArg₂ (yNat V c) ?_ ?_
  · show t.val * 5000 + (y 0).val = win0_6.index t (0 : Fin 2) * 5000 + 1 * (y 0).val
    rw [e0]; omega
  · show (y 1).val = win0_6.index t (1 : Fin 2) * 128 + 1 * (y 1).val
    rw [e1]; omega

theorem mem_blk6 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v33_0).slice (win0_6.rect t)).set ↔ _
  rw [View.set_slice_whole, Rect.mem_set_unit]
  exact Iff.rfl

/-- The twenty blocks tile the rows, so the array ends holding the layer. -/
theorem final6 (c : Dev nD) : (dat0 V c).arrAt 6 cfg0.N = G6 V c :=
  (dat0 V c).arrAt_eq_of_cover 6 (G6 V c) (fun t _ => flushed6_eq V c t) fun i => by
    have hN : cfg0.N = 20 := N_0
    have h0 : (i 0).val < 100000 := (i 0).isLt
    have h1 : (i 1).val < 128 := (i 1).isLt
    have ht : (i 0).val / 5000 < cfg0.N := by rw [hN]; omega
    obtain ⟨e0, e1⟩ := (idx_facts ⟨(i 0).val / 5000, ht⟩).2.2.2.2.2.2.1
    refine ⟨⟨(i 0).val / 5000, ht⟩, flush0_6 _, ?_⟩
    rw [mem_blk6]
    intro a
    match a with
    | ⟨0, _⟩ =>
      show win0_6.index ⟨(i 0).val / 5000, ht⟩ (0 : Fin 2) * 5000 ≤ (i 0).val
        ∧ (i 0).val < win0_6.index ⟨(i 0).val / 5000, ht⟩ (0 : Fin 2) * 5000 + 5000
      rw [e0]; dsimp only; omega
    | ⟨1, _⟩ =>
      show win0_6.index ⟨(i 0).val / 5000, ht⟩ (1 : Fin 2) * 128 ≤ (i 1).val
        ∧ (i 1).val < win0_6.index ⟨(i 0).val / 5000, ht⟩ (1 : Fin 2) * 128 + 128
      rw [e1]; omega

/-- What the second output's array ends holding: in column k, all twenty runs added one after another. -/
def G7 (c : Dev nD) : FVec Ideal S1x128 .f32 := fun i => Cert.Lib.accRuns (colRun V c (i 1).val) 19

/-- Only the last point writes the block back, and then the block holds that. -/
theorem flushed7_eq (c : Dev nD) (t : Fin cfg0.N) (hf : (cfg0.win 7).flush t = true) :
    (dat0 V c).flushed 7 t = ((cfg0.win 7).blk t).view.read (Elt Ideal) (G7 V c) := by
  have hN : cfg0.N = 20 := N_0
  have h19 : t.val = 19 := by have := (flush0_7 t).mp hf; have := lt_of_lt_of_eq t.isLt hN; omega
  obtain rfl : t = ⟨19, by rw [hN]; decide⟩ := Fin.ext h19
  obtain ⟨e0, e1⟩ := (idx_facts ⟨19, by rw [hN]; decide⟩).2.2.2.2.2.2.2.1
  show (cfg0.win 7).cut (grid0.coords ⟨19, _⟩) ((dat0 V c).after 7 ⟨19, _⟩) = _
  rw [after0_7]
  funext y
  rw [View.read_apply]
  show ((outsAt0 V c 19 _).2.1 : FVec Ideal S1x128 .f32) y = G7 V c (((cfg0.win 7).blk ⟨19, _⟩).view.emb y)
  rw [acc7 V c y 19]
  refine congrArg (fun k => Cert.Lib.accRuns (colRun V c k) 19) ?_
  show (y 1).val = win0_7.index ⟨19, _⟩ (1 : Fin 2) * 128 + 1 * (y 1).val
  rw [e1]; omega

theorem mem_blk7 (t : Fin cfg0.N) (i : S1x128.Idx) :
    i ∈ ((cfg0.win 7).blk t).view.set ↔ ∀ a : Fin 2, win0_7.index t a * S1x128.size a ≤ (i a).val
      ∧ (i a).val < win0_7.index t a * S1x128.size a + S1x128.size a := by
  show i ∈ ((View.whole main_v33_1).slice (win0_7.rect t)).set ↔ _
  rw [View.set_slice_whole, Rect.mem_set_unit]
  exact Iff.rfl

/-- The last point's block is the whole one-row array, so the array ends holding it. -/
theorem final7 (c : Dev nD) : (dat0 V c).arrAt 7 cfg0.N = G7 V c :=
  (dat0 V c).arrAt_eq_of_cover 7 (G7 V c) (flushed7_eq V c) fun i => by
    have hN : cfg0.N = 20 := N_0
    have h0 : (i 0).val < 1 := (i 0).isLt
    have h1 : (i 1).val < 128 := (i 1).isLt
    obtain ⟨e0, e1⟩ := (idx_facts ⟨19, by rw [hN]; decide⟩).2.2.2.2.2.2.2.1
    refine ⟨⟨19, by rw [hN]; decide⟩, (flush0_7 _).mpr rfl, ?_⟩
    rw [mem_blk7]
    intro a
    match a with
    | ⟨0, _⟩ =>
      show win0_7.index ⟨19, _⟩ (0 : Fin 2) * 1 ≤ (i 0).val ∧ (i 0).val < win0_7.index ⟨19, _⟩ (0 : Fin 2) * 1 + 1
      rw [e0]; omega
    | ⟨1, _⟩ =>
      show win0_7.index ⟨19, _⟩ (1 : Fin 2) * 128 ≤ (i 1).val ∧ (i 1).val < win0_7.index ⟨19, _⟩ (1 : Fin 2) * 128 + 128
      rw [e1]; omega

/-- What the third output's array ends holding: in column k, all twenty runs of squares added one after another. -/
def G8 (c : Dev nD) : FVec Ideal S1x128 .f32 := fun i => Cert.Lib.accRuns (colRunSq V c (i 1).val) 19

/-- Only the last point writes the block back, and then the block holds that. -/
theorem flushed8_eq (c : Dev nD) (t : Fin cfg0.N) (hf : (cfg0.win 8).flush t = true) :
    (dat0 V c).flushed 8 t = ((cfg0.win 8).blk t).view.read (Elt Ideal) (G8 V c) := by
  have hN : cfg0.N = 20 := N_0
  have h19 : t.val = 19 := by have := (flush0_8 t).mp hf; have := lt_of_lt_of_eq t.isLt hN; omega
  obtain rfl : t = ⟨19, by rw [hN]; decide⟩ := Fin.ext h19
  obtain ⟨e0, e1⟩ := (idx_facts ⟨19, by rw [hN]; decide⟩).2.2.2.2.2.2.2.2
  show (cfg0.win 8).cut (grid0.coords ⟨19, _⟩) ((dat0 V c).after 8 ⟨19, _⟩) = _
  rw [after0_8]
  funext y
  rw [View.read_apply]
  show ((outsAt0 V c 19 _).2.2 : FVec Ideal S1x128 .f32) y = G8 V c (((cfg0.win 8).blk ⟨19, _⟩).view.emb y)
  rw [acc8 V c y 19]
  refine congrArg (fun k => Cert.Lib.accRuns (colRunSq V c k) 19) ?_
  show (y 1).val = win0_8.index ⟨19, _⟩ (1 : Fin 2) * 128 + 1 * (y 1).val
  rw [e1]; omega

theorem mem_blk8 (t : Fin cfg0.N) (i : S1x128.Idx) :
    i ∈ ((cfg0.win 8).blk t).view.set ↔ ∀ a : Fin 2, win0_8.index t a * S1x128.size a ≤ (i a).val
      ∧ (i a).val < win0_8.index t a * S1x128.size a + S1x128.size a := by
  show i ∈ ((View.whole main_v33_2).slice (win0_8.rect t)).set ↔ _
  rw [View.set_slice_whole, Rect.mem_set_unit]
  exact Iff.rfl

/-- The last point's block is the whole one-row array, so the array ends holding it. -/
theorem final8 (c : Dev nD) : (dat0 V c).arrAt 8 cfg0.N = G8 V c :=
  (dat0 V c).arrAt_eq_of_cover 8 (G8 V c) (flushed8_eq V c) fun i => by
    have hN : cfg0.N = 20 := N_0
    have h0 : (i 0).val < 1 := (i 0).isLt
    have h1 : (i 1).val < 128 := (i 1).isLt
    obtain ⟨e0, e1⟩ := (idx_facts ⟨19, by rw [hN]; decide⟩).2.2.2.2.2.2.2.2
    refine ⟨⟨19, by rw [hN]; decide⟩, (flush0_8 _).mpr rfl, ?_⟩
    rw [mem_blk8]
    intro a
    match a with
    | ⟨0, _⟩ =>
      show win0_8.index ⟨19, _⟩ (0 : Fin 2) * 1 ≤ (i 0).val ∧ (i 0).val < win0_8.index ⟨19, _⟩ (0 : Fin 2) * 1 + 1
      rw [e0]; omega
    | ⟨1, _⟩ =>
      show win0_8.index ⟨19, _⟩ (1 : Fin 2) * 128 ≤ (i 1).val ∧ (i 1).val < win0_8.index ⟨19, _⟩ (1 : Fin 2) * 128 + 128
      rw [e1]; omega

/-- The first output holds the layer's value. -/
theorem arr_y (c : Dev nD) (p : Fin 100000) (q : Fin 128) :
    ((dat0 V c).arrAt 6 cfg0.N : FVec Ideal S100000x128 .f32) (ix2 p q) = Y V c p q := by
  rw [final6]
  exact yNat_eq V c p q

/-- The second output holds each column's sum over all rows. -/
theorem arr_sum (c : Dev nD) (q : Fin 128) :
    ((dat0 V c).arrAt 7 cfg0.N : FVec Ideal S1x128 .f32) (ix2 (0 : Fin 1) q) = ∑ r : Fin 100000, Y V c r q := by
  rw [final7]
  exact (Cert.Lib.accRuns_runs_eq_sum 19 5000 100000 rfl (fun x => yNat V c x q.val)).trans
    (Finset.sum_congr rfl fun r _ => yNat_eq V c r q)

/-- The third output holds each column's sum of squares over all rows. -/
theorem arr_sumsq (c : Dev nD) (q : Fin 128) :
    ((dat0 V c).arrAt 8 cfg0.N : FVec Ideal S1x128 .f32) (ix2 (0 : Fin 1) q)
      = ∑ r : Fin 100000, Y V c r q * Y V c r q := by
  rw [final8]
  exact (Cert.Lib.accRuns_runs_eq_sum 19 5000 100000 rfl (fun x => yNat V c x q.val * yNat V c x q.val)).trans
    (Finset.sum_congr rfl fun r _ => congrArg (fun z => z * z) (yNat_eq V c r q))

end Cert.KernelIdeal.Region0

end
-- ==== Proof.KRegion1.lean ====
/- What the second kernel leaves in its output array. Each grid point t normalises rows 5000·t … 5000·t + 4999 of
   y with the column statistics it is handed: entry (p, q) is ((y (p, q) − mean q) · rsqrt (var q + ε)) · γ q + β q. The
   blocks tile the rows, so the whole array is that one function of the region's operand arrays. -/
import proofs.«117146_j44933947850910_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The region's operand arrays as it finds them. -/
abbrev yArr (c : Dev nD) : FVec Ideal S100000x128 .f32 := V c main_v33_0
abbrev meanArr (c : Dev nD) : FVec Ideal S1x128 .f32 := V c main_v35
abbrev varArr (c : Dev nD) : FVec Ideal S1x128 .f32 := V c main_v39
abbrev gamArr (c : Dev nD) : FVec Ideal S1x128 .f32 := V c main_v31
abbrev betArr (c : Dev nD) : FVec Ideal S1x128 .f32 := V c main_v32

/-! ## The body's arithmetic at one entry -/

/-- Both offsets of an access to a whole buffer are zero. -/
theorem zero_offsets : (![0, 0] : Fin 2 → Nat) = fun _ => 0 := funext fun a => by fin_cases a <;> rfl

/-- The stored value at entry (a, b) of the block: the row operands are read at column b of their single row. -/
theorem pay_apply (v0 : Vec Ideal S1x128 .f32) (v5 : Vec Ideal S5000x128 .f32) (v7 v13 v17 : Vec Ideal S1x128 .f32)
    (a : Fin 5000) (b : Fin 128) :
    k1_pay1 (F := Ideal) v0 v5 v7 v13 v17 (ix2 a b)
      = ((v5 (ix2 a b) - v7 (ix2 (0 : Fin 1) b))
            * Ideal.rsqrt (v0 (ix2 (0 : Fin 1) b) + Ideal.ofBits .f32 0x3727C5AC#32))
          * v13 (ix2 (0 : Fin 1) b) + v17 (ix2 (0 : Fin 1) b) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-! ## The whole output as one function of the operand arrays -/

/-- Entry (p, q) of the normalised array. -/
def normAt (y : FVec Ideal S100000x128 .f32) (mu va ga be : FVec Ideal S1x128 .f32) (p : Fin 100000) (q : Fin 128) : Ideal .f32 :=
  ((y (ix2 p q) - mu (ix2 (0 : Fin 1) q)) * Ideal.rsqrt (va (ix2 (0 : Fin 1) q) + Ideal.ofBits .f32 0x3727C5AC#32))
    * ga (ix2 (0 : Fin 1) q) + be (ix2 (0 : Fin 1) q)

/-- The normalised array. -/
def normAll (y : FVec Ideal S100000x128 .f32) (mu va ga be : FVec Ideal S1x128 .f32) : FVec Ideal S100000x128 .f32 :=
  fun i => normAt y mu va ga be (i 0) (i 1)

/-- An entry of the normalised array whose column is b, written with the index itself. -/
theorem normAll_apply (y : FVec Ideal S100000x128 .f32) (mu va ga be : FVec Ideal S1x128 .f32) (k : S100000x128.Idx)
    (b : Fin 128) (hb : (k 1).val = b.val) :
    normAll y mu va ga be k
      = ((y k - mu (ix2 (0 : Fin 1) b)) * Ideal.rsqrt (va (ix2 (0 : Fin 1) b) + Ideal.ofBits .f32 0x3727C5AC#32))
          * ga (ix2 (0 : Fin 1) b) + be (ix2 (0 : Fin 1) b) := by
  obtain ⟨p, q, rfl⟩ : ∃ (p : Fin 100000) (q : Fin 128), k = ix2 p q := ⟨k 0, k 1, eq_ix2 k⟩
  obtain rfl : q = b := Fin.ext hb
  rfl

/-! ## The blocks a grid point reads -/

/-- Where the index maps send a grid point: the y and output blocks are the point's own row block, the row operands'
    block is their whole array. -/
theorem block_indices : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Entry (a, b) of the y block at point t is row 5000·t + a of y. -/
theorem yblk_apply (c : Dev nD) (t : Fin cfg1.N) (a : Fin 5000) (b : Fin 128) (k : S100000x128.Idx)
    (hk0 : (k 0).val = t.val * 5000 + a.val) (hk1 : (k 1).val = b.val) :
    (iblk1 V c 0 t : Vec Ideal S5000x128 .f32) (ix2 a b) = yArr V c k := by
  obtain ⟨e0, e1, -⟩ := block_indices t
  unfold iblk1
  rw [View.read_apply]
  show V c main_v33_0 _ = V c main_v33_0 _
  congr 1
  funext ax
  apply Fin.ext
  match ax with
  | ⟨0, _⟩ => show win1_0.index t 0 * 5000 + 1 * a.val = (k 0).val; rw [e0, hk0]; omega
  | ⟨1, _⟩ => show win1_0.index t 1 * 128 + 1 * b.val = (k 1).val; rw [e1, hk1]; omega

/-- The mean block at any point is the mean array. -/
theorem meanblk_apply (c : Dev nD) (t : Fin cfg1.N) (b : Fin 128) :
    (iblk1 V c 1 t : Vec Ideal S1x128 .f32) (ix2 (0 : Fin 1) b) = meanArr V c (ix2 (0 : Fin 1) b) := by
  obtain ⟨-, -, -, -, e0, e1, -⟩ := block_indices t
  unfold iblk1
  rw [View.read_apply]
  show V c main_v35 _ = V c main_v35 _
  congr 1
  funext ax
  apply Fin.ext
  match ax with
  | ⟨0, _⟩ => show win1_1.index t 0 * 1 + 1 * 0 = 0; rw [e0]
  | ⟨1, _⟩ => show win1_1.index t 1 * 128 + 1 * b.val = b.val; rw [e1]; omega

/-- The variance block at any point is the variance array. -/
theorem varblk_apply (c : Dev nD) (t : Fin cfg1.N) (b : Fin 128) :
    (iblk1 V c 2 t : Vec Ideal S1x128 .f32) (ix2 (0 : Fin 1) b) = varArr V c (ix2 (0 : Fin 1) b) := by
  obtain ⟨-, -, -, -, -, -, e0, e1, -⟩ := block_indices t
  unfold iblk1
  rw [View.read_apply]
  show V c main_v39 _ = V c main_v39 _
  congr 1
  funext ax
  apply Fin.ext
  match ax with
  | ⟨0, _⟩ => show win1_2.index t 0 * 1 + 1 * 0 = 0; rw [e0]
  | ⟨1, _⟩ => show win1_2.index t 1 * 128 + 1 * b.val = b.val; rw [e1]; omega

/-- The scale block at any point is the scale array. -/
theorem gamblk_apply (c : Dev nD) (t : Fin cfg1.N) (b : Fin 128) :
    (iblk1 V c 3 t : Vec Ideal S1x128 .f32) (ix2 (0 : Fin 1) b) = gamArr V c (ix2 (0 : Fin 1) b) := by
  obtain ⟨-, -, -, -, -, -, -, -, e0, e1, -⟩ := block_indices t
  unfold iblk1
  rw [View.read_apply]
  show V c main_v31 _ = V c main_v31 _
  congr 1
  funext ax
  apply Fin.ext
  match ax with
  | ⟨0, _⟩ => show win1_3.index t 0 * 1 + 1 * 0 = 0; rw [e0]
  | ⟨1, _⟩ => show win1_3.index t 1 * 128 + 1 * b.val = b.val; rw [e1]; omega

/-- The shift block at any point is the shift array. -/
theorem betblk_apply (c : Dev nD) (t : Fin cfg1.N) (b : Fin 128) :
    (iblk1 V c 4 t : Vec Ideal S1x128 .f32) (ix2 (0 : Fin 1) b) = betArr V c (ix2 (0 : Fin 1) b) := by
  obtain ⟨-, -, -, -, -, -, -, -, -, -, e0, e1⟩ := block_indices t
  unfold iblk1
  rw [View.read_apply]
  show V c main_v32 _ = V c main_v32 _
  congr 1
  funext ax
  apply Fin.ext
  match ax with
  | ⟨0, _⟩ => show win1_4.index t 0 * 1 + 1 * 0 = 0; rw [e0]
  | ⟨1, _⟩ => show win1_4.index t 1 * 128 + 1 * b.val = b.val; rw [e1]; omega

/-! ## What a grid point writes back, and the cover -/

/-- What point t writes back is its row block of the normalised array. -/
theorem flushed_eq (c : Dev nD) (t : Fin cfg1.N) :
    (dat1 V c).flushed 5 t
      = ((cfg1.win 5).blk t).view.read (Elt Ideal)
          (normAll (yArr V c) (meanArr V c) (varArr V c) (gamArr V c) (betArr V c)) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  obtain ⟨-, -, e0, e1, -⟩ := block_indices t
  funext j
  obtain ⟨a, b, rfl⟩ : ∃ (a : Fin 5000) (b : Fin 128), j = ix2 a b := ⟨j 0, j 1, eq_ix2 j⟩
  show k1_pay1 (F := Ideal) (iblk1 V c 2 t) (iblk1 V c 0 t) (iblk1 V c 1 t) (iblk1 V c 3 t) (iblk1 V c 4 t) (ix2 a b)
      = normAll (yArr V c) (meanArr V c) (varArr V c) (gamArr V c) (betArr V c) (((cfg1.win 5).blk t).view.emb (ix2 a b))
  have h0 : ((((cfg1.win 5).blk t).view.emb (ix2 a b) : S100000x128.Idx) 0).val = t.val * 5000 + a.val := by
    show win1_5.index t 0 * 5000 + 1 * a.val = _; rw [e0]; omega
  have h1 : ((((cfg1.win 5).blk t).view.emb (ix2 a b) : S100000x128.Idx) 1).val = b.val := by
    show win1_5.index t 1 * 128 + 1 * b.val = _; rw [e1]; omega
  rw [normAll_apply (yArr V c) (meanArr V c) (varArr V c) (gamArr V c) (betArr V c) _ b h1]
  refine (pay_apply (iblk1 V c 2 t) (iblk1 V c 0 t) (iblk1 V c 1 t) (iblk1 V c 3 t) (iblk1 V c 4 t) a b).trans ?_
  rw [yblk_apply V c t a b _ h0 h1, meanblk_apply V c t b, varblk_apply V c t b, gamblk_apply V c t b, betblk_apply V c t b]

/-- An index lies in point t's output block iff each coordinate lies in the block's range on its axis. -/
theorem mem_blk (t : Fin cfg1.N) (i : S100000x128.Idx) :
    i ∈ ((cfg1.win 5).blk t).view.set
      ↔ ∀ a : Fin 2, win1_5.index t a * S5000x128.size a ≤ (i a).val
          ∧ (i a).val < win1_5.index t a * S5000x128.size a + S5000x128.size a := by
  show i ∈ ((View.whole main_v40).slice (win1_5.rect t)).set ↔ _
  rw [View.set_slice_whole, Rect.mem_set_unit]
  exact Iff.rfl

/-- Row r lies in the block of point r / 5000, and every point writes back: the blocks cover the array. -/
theorem covered (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : grid1.N = 20 := N_1
  have ht : (i 0).val / 5000 < cfg1.N := by show _ < grid1.N; rw [hN]; omega
  obtain ⟨-, -, e0, e1, -⟩ := block_indices ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

/-- The output array after the region is the normalised array. -/
theorem arr_eq (c : Dev nD) :
    (dat1 V c).arrAt 5 cfg1.N = normAll (yArr V c) (meanArr V c) (varArr V c) (gamArr V c) (betArr V c) :=
  (dat1 V c).arrAt_eq_of_cover 5 (normAll (yArr V c) (meanArr V c) (varArr V c) (gamArr V c) (betArr V c))
    (fun t _ => flushed_eq V c t) covered

/-- The output array after the region, entry by entry. -/
theorem arr_out (c : Dev nD) (p : Fin 100000) (q : Fin 128) :
    ((dat1 V c).arrAt 5 cfg1.N : FVec Ideal S100000x128 .f32) (ix2 p q)
      = ((yArr V c (ix2 p q) - meanArr V c (ix2 (0 : Fin 1) q))
            * Ideal.rsqrt (varArr V c (ix2 (0 : Fin 1) q) + Ideal.ofBits .f32 0x3727C5AC#32))
          * gamArr V c (ix2 (0 : Fin 1) q) + betArr V c (ix2 (0 : Fin 1) q) := by
  rw [arr_eq V c]
  rfl

end Cert.KernelIdeal.Region1

end
-- ==== Proof.KernelValue.lean ====
/- The idealized kernel program's result, entry by entry, as a function of the argument arrays. The second region
   normalises the first region's y with the column statistics the host computed between them from the first region's
   column sums; reading each region's operands back to the arguments gives
       result (p, q) = ((y (p, q) − m q) · rsqrt (v q + ε)) · γ q + β q,
   y the two-branch layer of the aggregated features, the features, the two weights and the two biases, m q the mean of
   column q over the 100000 rows, and v q the mean of the column's squares less m q squared. -/
import proofs.«117146_j44933947850910_1_alg».proof.Proof.KHost
import proofs.«117146_j44933947850910_1_alg».proof.Proof.KRegion0
import proofs.«117146_j44933947850910_1_alg».proof.Proof.KRegion1
import proofs.«117146_j44933947850910_1_alg».proof.Proof.LibTwoBranchBn
import Idealize.ShloMosaic.Lib.ValueIdx
import Idealize.ShloMosaic.Lib.ValueLayout

set_option maxRecDepth 16384

noncomputable section

namespace Cert.KernelIdeal.KernelValue

open Cert.KernelIdeal Cert.KernelIdeal.Gen Cert.KernelIdeal.HostSide
open Idealize.ShloMosaic Idealize.ShloMosaic.TcCoe Idealize.ShloMosaic.ValueIdx Idealize.SL.Sem
open Cert.LibTwoBranchBn
open scoped BigOperators

variable (m : (ℓ : Loc nD τ sig) → Buf (Elt Ideal) ℓ) (ρ : Dev nD → PrngReg)

/-- The row count as both programs spell it, and the variance's epsilon. -/
abbrev Dn : EReal := Ideal.ofBits .f32 0x47C35000#32
abbrev eps : EReal := Ideal.ofBits .f32 0x3727C5AC#32

/-- The layer's value at row r and column q, of the argument arrays. -/
def Yk (c : Dev nD) : Fin 100000 → Fin 128 → EReal :=
  layer (fun r j => Cert.LibSymGcnAgg.hagg aggFacts 100000#32 (a0 m c) (a7 m c) (a8 m c) (ix2 r j)) (fun r j => a0 m c (ix2 r j))
    (fun j q => a1 m c (ix2 j q)) (fun j q => a3 m c (ix2 j q)) (fun q => a2 m c (ix1 q)) (fun q => a4 m c (ix1 q))

/-- The first region's layer, of the operands it finds, is the layer of the arguments. -/
theorem Y_eq (c : Dev nD) : Region0.Y (V1 m ρ) c = Yk m c := by
  have e1 : (fun (r : Fin 100000) (j : Fin 128) => Region0.hArr (V1 m ρ) c (ix2 r j))
      = fun r j => Cert.LibSymGcnAgg.hagg aggFacts 100000#32 (a0 m c) (a7 m c) (a8 m c) (ix2 r j) := by
    funext r j; exact congrFun (V1_h m ρ c) (ix2 r j)
  have e2 : (fun (r : Fin 100000) (j : Fin 128) => Region0.xArr (V1 m ρ) c (ix2 r j)) = fun r j => a0 m c (ix2 r j) := by
    funext r j; exact congrFun (V1_x m ρ c) (ix2 r j)
  have e3 : (fun (j q : Fin 128) => Region0.wArr (V1 m ρ) c (ix2 j q)) = fun j q => a1 m c (ix2 j q) := by
    funext j q; exact congrFun (V1_w m ρ c) (ix2 j q)
  have e4 : (fun (j q : Fin 128) => Region0.wrArr (V1 m ρ) c (ix2 j q)) = fun j q => a3 m c (ix2 j q) := by
    funext j q; exact congrFun (V1_wr m ρ c) (ix2 j q)
  have e5 : (fun (q : Fin 128) => Region0.bArr (V1 m ρ) c (ix2 (0 : Fin 1) q)) = fun q => a2 m c (ix1 q) := by
    funext q
    exact (congrFun (V1_b m ρ c) (ix2 (0 : Fin 1) q)).trans (shapeCast_a_1a_apply (a2 m c) shapeCasts_S128_S1x128 0 q)
  have e6 : (fun (q : Fin 128) => Region0.brArr (V1 m ρ) c (ix2 (0 : Fin 1) q)) = fun q => a4 m c (ix1 q) := by
    funext q
    exact (congrFun (V1_br m ρ c) (ix2 (0 : Fin 1) q)).trans (shapeCast_a_1a_apply (a4 m c) shapeCasts_S128_S1x128 0 q)
  unfold Region0.Y Yk
  rw [e1, e2, e3, e4, e5, e6]

/-- The second region's first operand is y. -/
theorem y_at (c : Dev nD) (p : Fin 100000) (q : Fin 128) :
    Region1.yArr (V3 m ρ) c (ix2 p q) = Yk m c p q := by
  show (V3 m ρ c main_v33_0 : FVec Ideal S100000x128 .f32) (ix2 p q) = _
  rw [V3_y, W2_y]
  exact (Region0.arr_y (V1 m ρ) c p q).trans (congrFun (congrFun (Y_eq m ρ c) p) q)

/-- The first region's second output: the column sums of y. -/
theorem sum_at (c : Dev nD) (q : Fin 128) :
    (W2 m ρ c (Proc.devRef .tc main_v33_1) : FVec Ideal S1x128 .f32) (ix2 (0 : Fin 1) q) = ∑ r : Fin 100000, Yk m c r q := by
  rw [W2_sum]
  exact (Region0.arr_sum (V1 m ρ) c q).trans (by rw [Y_eq])

/-- The first region's third output: the column sums of y². -/
theorem sumsq_at (c : Dev nD) (q : Fin 128) :
    (W2 m ρ c (Proc.devRef .tc main_v33_2) : FVec Ideal S1x128 .f32) (ix2 (0 : Fin 1) q)
      = ∑ r : Fin 100000, Yk m c r q * Yk m c r q := by
  rw [W2_sumsq]
  exact (Region0.arr_sumsq (V1 m ρ) c q).trans (by rw [Y_eq])

/-- The second region's mean operand is the column mean of y. -/
theorem mean_at (c : Dev nD) (q : Fin 128) :
    Region1.meanArr (V3 m ρ) c (ix2 (0 : Fin 1) q) = colMean Dn (Yk m c) q := by
  show (V3 m ρ c main_v35 : FVec Ideal S1x128 .f32) (ix2 (0 : Fin 1) q) = _
  rw [V3_mean]
  show Ideal.div ((W2 m ρ c (Proc.devRef .tc main_v33_1) : FVec Ideal S1x128 .f32) (ix2 (0 : Fin 1) q)) Dn = _
  rw [sum_at]
  rfl

/-- The second region's variance operand is the mean of the squares less the squared mean. -/
theorem var_at (c : Dev nD) (q : Fin 128) :
    Region1.varArr (V3 m ρ) c (ix2 (0 : Fin 1) q) = varSq Dn (Yk m c) q := by
  show (V3 m ρ c main_v39 : FVec Ideal S1x128 .f32) (ix2 (0 : Fin 1) q) = _
  rw [V3_var]
  show Ideal.div ((W2 m ρ c (Proc.devRef .tc main_v33_2) : FVec Ideal S1x128 .f32) (ix2 (0 : Fin 1) q)) Dn
      - Ideal.div ((W2 m ρ c (Proc.devRef .tc main_v33_1) : FVec Ideal S1x128 .f32) (ix2 (0 : Fin 1) q)) Dn
        * Ideal.div ((W2 m ρ c (Proc.devRef .tc main_v33_1) : FVec Ideal S1x128 .f32) (ix2 (0 : Fin 1) q)) Dn = _
  rw [sum_at, sumsq_at]
  rfl

/-- The scale and the shift reach the second region as recast before the first. -/
theorem gam_at (c : Dev nD) (q : Fin 128) :
    Region1.gamArr (V3 m ρ) c (ix2 (0 : Fin 1) q) = a5 m c (ix1 q) := by
  show (V3 m ρ c main_v31 : FVec Ideal S1x128 .f32) (ix2 (0 : Fin 1) q) = _
  rw [V3_gam, W2_gam, V1_gam]
  exact shapeCast_a_1a_apply (a5 m c) shapeCasts_S128_S1x128 0 q

theorem bet_at (c : Dev nD) (q : Fin 128) :
    Region1.betArr (V3 m ρ) c (ix2 (0 : Fin 1) q) = a6 m c (ix1 q) := by
  show (V3 m ρ c main_v32 : FVec Ideal S1x128 .f32) (ix2 (0 : Fin 1) q) = _
  rw [V3_bet, W2_bet, V1_bet]
  exact shapeCast_a_1a_apply (a6 m c) shapeCasts_S128_S1x128 0 q

/-- The result array after the run, entry by entry. -/
theorem result_at (c : Dev nD) (p : Fin 100000) (q : Fin 128) :
    (W4 m ρ c (Proc.devRef .tc main_v40) : FVec Ideal S100000x128 .f32) (ix2 p q)
      = bn Dn eps (varSq Dn (Yk m c)) (Yk m c) (fun q => a5 m c (ix1 q)) (fun q => a6 m c (ix1 q)) p q := by
  have h4 : W4 m ρ c (Proc.devRef .tc main_v40) = (dat1 (V3 m ρ) c).arrAt 5 cfg1.N := W4_arr m ρ c 5
  rw [h4]
  refine (Region1.arr_out (V3 m ρ) c p q).trans ?_
  rw [y_at, mean_at, var_at, gam_at, bet_at]
  rfl

end Cert.KernelIdeal.KernelValue

end
-- ==== Proof.RefValue.lean ====
/- The reference's result, entry by entry. Its host operations compute the aggregated features H, the layer
       y (r, c) = max (Σ_j H (r, j) · W (j, c) + b c, 0) + max (Σ_j X (r, j) · Wr (j, c) + br c, 0),
   each column's mean m c = (Σ_r y (r, c)) / 100000 and its variance as the mean of the squared deviations from m c, and
   return ((y − m) · rsqrt (v + ε)) · γ + β. Read at (p, q), the result is that function of the argument arrays; the
   aggregated features are kept as the one stage that computes them, never opened. -/
import proofs.«117146_j44933947850910_1_alg».proof.Proof.Gen.ReferenceIdeal.Read
import proofs.«117146_j44933947850910_1_alg».proof.Proof.LibTwoBranchBn
import proofs.«117146_j44933947850910_1_alg».proof.Proof.LibConsts
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open scoped BigOperators

variable (m : (ℓ : Loc nD τ sig) → Buf (Elt Ideal) ℓ)

/-- The argument arrays at launch. -/
abbrev a0 (c : Dev nD) : FVec Ideal S100000x128 .f32 := m ((c.tc : Thread nD τ).loc main_arg0)
abbrev a1 (c : Dev nD) : FVec Ideal S128x128 .f32 := m ((c.tc : Thread nD τ).loc main_arg1)
abbrev a2 (c : Dev nD) : FVec Ideal S128 .f32 := m ((c.tc : Thread nD τ).loc main_arg2)
abbrev a3 (c : Dev nD) : FVec Ideal S128x128 .f32 := m ((c.tc : Thread nD τ).loc main_arg3)
abbrev a4 (c : Dev nD) : FVec Ideal S128 .f32 := m ((c.tc : Thread nD τ).loc main_arg4)
abbrev a5 (c : Dev nD) : FVec Ideal S128 .f32 := m ((c.tc : Thread nD τ).loc main_arg5)
abbrev a6 (c : Dev nD) : FVec Ideal S128 .f32 := m ((c.tc : Thread nD τ).loc main_arg6)
abbrev a7 (c : Dev nD) : IVec S400000 32 := m ((c.tc : Thread nD τ).loc main_arg7)
abbrev a8 (c : Dev nD) : IVec S400000 32 := m ((c.tc : Thread nD τ).loc main_arg8)

/-- The aggregated features: the stage that computes them, of the arguments it reads. -/
abbrev hRef (c : Dev nD) : FVec Ideal S100000x128 .f32 := Read.val_main_v28 (F := Ideal) (a0 m c) (a7 m c) (a8 m c)

/-- The layer's value at row r and column q. -/
def Yr (c : Dev nD) : Fin 100000 → Fin 128 → EReal :=
  Cert.LibTwoBranchBn.layer (fun r j => hRef m c (ix2 r j)) (fun r j => a0 m c (ix2 r j))
    (fun j q => a1 m c (ix2 j q)) (fun j q => a3 m c (ix2 j q))
    (fun q => a2 m c (ix1 q)) (fun q => a4 m c (ix1 q))

/-! ### The stages over arbitrary argument arrays

Every stage below the result is read at a row p and a column q (or at a column q alone) over argument arrays that are
plain variables; the launch's arrays are put in only at the end. -/

section stages

open Cert.LibTwoBranchBn

/-- The layer over arbitrary argument arrays; the aggregated features stay the one stage that computes them. -/
def Yv (x0 : FVec Ideal S100000x128 .f32) (x1 : FVec Ideal S128x128 .f32) (x2 : FVec Ideal S128 .f32) (x3 : FVec Ideal S128x128 .f32) (x4 : FVec Ideal S128 .f32) (x7 x8 : IVec S400000 32) : Fin 100000 → Fin 128 → EReal :=
  layer (fun r j => Read.val_main_v28 (F := Ideal) x0 x7 x8 (ix2 r j)) (fun r j => x0 (ix2 r j))
    (fun j q => x1 (ix2 j q)) (fun j q => x3 (ix2 j q)) (fun q => x2 (ix1 q)) (fun q => x4 (ix1 q))

/-! #### Where each product and each column sum reads its operands -/

/-- Entry (p, q) of a product reads row p of the left factor … -/
theorem lidx_v29 (p : Fin 100000) (q k : Fin 128) : Read.lidx_main_v29 (ix2 p q) k = ix2 p k :=
  funext fun a => Fin.ext (by match a with | ⟨0, _⟩ => rfl | ⟨1, _⟩ => rfl)
/-- … and column q of the right factor. -/
theorem ridx_v29 (p : Fin 100000) (q k : Fin 128) : Read.ridx_main_v29 (ix2 p q) k = ix2 k q :=
  funext fun a => Fin.ext (by match a with | ⟨0, _⟩ => rfl | ⟨1, _⟩ => rfl)
theorem lidx_v34 (p : Fin 100000) (q k : Fin 128) : Read.lidx_main_v34 (ix2 p q) k = ix2 p k :=
  funext fun a => Fin.ext (by match a with | ⟨0, _⟩ => rfl | ⟨1, _⟩ => rfl)
theorem ridx_v34 (p : Fin 100000) (q k : Fin 128) : Read.ridx_main_v34 (ix2 p q) k = ix2 k q :=
  funext fun a => Fin.ext (by match a with | ⟨0, _⟩ => rfl | ⟨1, _⟩ => rfl)
/-- The sum down column q reads entry (k, q) at its k-th term. -/
theorem idx_v40 (q : Fin 128) (k : Fin 100000) : Read.idx_main_v40 (ix1 q) k = ix2 k q :=
  funext fun a => Fin.ext (by match a with | ⟨0, _⟩ => rfl | ⟨1, _⟩ => rfl)
theorem idx_v47 (q : Fin 128) (k : Fin 100000) : Read.idx_main_v47 (ix1 q) k = ix2 k q :=
  funext fun a => Fin.ext (by match a with | ⟨0, _⟩ => rfl | ⟨1, _⟩ => rfl)

/-! #### A row of 128 entries repeated down the 100000 rows, read at (p, q), is its entry q -/

theorem row_v31 (x2 : FVec Ideal S128 .f32) (p : Fin 100000) (q : Fin 128) :
    Read.val_main_v31 (F := Ideal) x2 (ix2 p q) = x2 (ix1 q) := by
  rw [Read.val_main_v31_apply, Read.val_main_v30_apply]
  exact congrArg x2 (funext fun a => Fin.ext (by match a with | ⟨0, _⟩ => rfl))

theorem row_v36 (x4 : FVec Ideal S128 .f32) (p : Fin 100000) (q : Fin 128) :
    Read.val_main_v36 (F := Ideal) x4 (ix2 p q) = x4 (ix1 q) := by
  rw [Read.val_main_v36_apply, Read.val_main_v35_apply]
  exact congrArg x4 (funext fun a => Fin.ext (by match a with | ⟨0, _⟩ => rfl))

theorem row_v60 (x5 : FVec Ideal S128 .f32) (p : Fin 100000) (q : Fin 128) :
    Read.val_main_v60 (F := Ideal) x5 (ix2 p q) = x5 (ix1 q) := by
  rw [Read.val_main_v60_apply, Read.val_main_v59_apply]
  exact congrArg x5 (funext fun a => Fin.ext (by match a with | ⟨0, _⟩ => rfl))

theorem row_v63 (x6 : FVec Ideal S128 .f32) (p : Fin 100000) (q : Fin 128) :
    Read.val_main_v63 (F := Ideal) x6 (ix2 p q) = x6 (ix1 q) := by
  rw [Read.val_main_v63_apply, Read.val_main_v62_apply]
  exact congrArg x6 (funext fun a => Fin.ext (by match a with | ⟨0, _⟩ => rfl))

theorem row_v44 (x0 : FVec Ideal S100000x128 .f32) (x1 : FVec Ideal S128x128 .f32) (x2 : FVec Ideal S128 .f32) (x3 : FVec Ideal S128x128 .f32) (x4 : FVec Ideal S128 .f32) (x7 x8 : IVec S400000 32) (p : Fin 100000) (q : Fin 128) :
    Read.val_main_v44 (F := Ideal) x0 x1 x2 x3 x4 x7 x8 (ix2 p q) = Read.val_main_v42 (F := Ideal) x0 x1 x2 x3 x4 x7 x8 (ix1 q) := by
  rw [Read.val_main_v44_apply, Read.val_main_v43_apply]
  exact congrArg (Read.val_main_v42 (F := Ideal) x0 x1 x2 x3 x4 x7 x8) (funext fun a => Fin.ext (by match a with | ⟨0, _⟩ => rfl))

theorem row_v51 (x0 : FVec Ideal S100000x128 .f32) (x1 : FVec Ideal S128x128 .f32) (x2 : FVec Ideal S128 .f32) (x3 : FVec Ideal S128x128 .f32) (x4 : FVec Ideal S128 .f32) (x7 x8 : IVec S400000 32) (p : Fin 100000) (q : Fin 128) :
    Read.val_main_v51 (F := Ideal) x0 x1 x2 x3 x4 x7 x8 (ix2 p q) = Read.val_main_v42 (F := Ideal) x0 x1 x2 x3 x4 x7 x8 (ix1 q) := by
  rw [Read.val_main_v51_apply, Read.val_main_v50_apply]
  exact congrArg (Read.val_main_v42 (F := Ideal) x0 x1 x2 x3 x4 x7 x8) (funext fun a => Fin.ext (by match a with | ⟨0, _⟩ => rfl))

theorem row_v57 (x0 : FVec Ideal S100000x128 .f32) (x1 : FVec Ideal S128x128 .f32) (x2 : FVec Ideal S128 .f32) (x3 : FVec Ideal S128x128 .f32) (x4 : FVec Ideal S128 .f32) (x7 x8 : IVec S400000 32) (p : Fin 100000) (q : Fin 128) :
    Read.val_main_v57 (F := Ideal) x0 x1 x2 x3 x4 x7 x8 (ix2 p q) = Read.val_main_v55 (F := Ideal) x0 x1 x2 x3 x4 x7 x8 (ix1 q) := by
  rw [Read.val_main_v57_apply, Read.val_main_v56_apply]
  exact congrArg (Read.val_main_v55 (F := Ideal) x0 x1 x2 x3 x4 x7 x8) (funext fun a => Fin.ext (by match a with | ⟨0, _⟩ => rfl))

/-! #### The constants: the zero of each maximum, the divisor of each mean, the variance's offset -/

theorem zero_call0 (i : S100000x128.Idx) : Read.val_main_call0_v0 (F := Ideal) i = 0 := by
  rw [Read.val_main_call0_v0_apply, Read.val_main_call0_cst_apply, Ideal.ofBits_def, Cert.LibConsts.ofBits_zero]

theorem zero_call1 (i : S100000x128.Idx) : Read.val_main_call1_v0 (F := Ideal) i = 0 := by
  rw [Read.val_main_call1_v0_apply, Read.val_main_call1_cst_apply, Ideal.ofBits_def, Cert.LibConsts.ofBits_zero]

theorem count_v41 (i : S128.Idx) : Read.val_main_v41 (F := Ideal) i = (Ideal.ofBits .f32 0x47C35000#32) := by
  rw [Read.val_main_v41_apply, Read.val_main_cst_7_apply, Ideal.ofBits_def]

theorem count_v48 (i : S128.Idx) : Read.val_main_v48 (F := Ideal) i = (Ideal.ofBits .f32 0x47C35000#32) := by
  rw [Read.val_main_v48_apply, Read.val_main_cst_9_apply, Ideal.ofBits_def]

theorem offset_v53 (i : S128.Idx) : Read.val_main_v53 (F := Ideal) i = (Ideal.ofBits .f32 0x3727C5AC#32) := by
  rw [Read.val_main_v53_apply, Read.val_main_cst_10_apply, Ideal.ofBits_def]

/-! #### The layer, the column mean and the column variance -/

/-- The sum of the two rectified affine maps at (p, q). -/
theorem layer_apply (x0 : FVec Ideal S100000x128 .f32) (x1 : FVec Ideal S128x128 .f32) (x2 : FVec Ideal S128 .f32) (x3 : FVec Ideal S128x128 .f32) (x4 : FVec Ideal S128 .f32) (x7 x8 : IVec S400000 32) (p : Fin 100000) (q : Fin 128) :
    Read.val_main_v39 (F := Ideal) x0 x1 x2 x3 x4 x7 x8 (ix2 p q) = Yv x0 x1 x2 x3 x4 x7 x8 p q := by
  rw [Read.val_main_v39_apply, Read.val_main_v33_apply, Read.val_main_v32_apply, Read.val_main_v29_apply, row_v31,
    zero_call0, Read.val_main_v38_apply, Read.val_main_v37_apply, Read.val_main_v34_apply, row_v36, zero_call1]
  simp only [Ideal.addf_def, Ideal.maximumf_def, lidx_v29, ridx_v29, lidx_v34, ridx_v34]
  rfl

/-- The mean of column q: the column's sum, started from zero, over the row count. -/
theorem mean_apply (x0 : FVec Ideal S100000x128 .f32) (x1 : FVec Ideal S128x128 .f32) (x2 : FVec Ideal S128 .f32) (x3 : FVec Ideal S128x128 .f32) (x4 : FVec Ideal S128 .f32) (x7 x8 : IVec S400000 32) (q : Fin 128) :
    Read.val_main_v42 (F := Ideal) x0 x1 x2 x3 x4 x7 x8 (ix1 q) = colMean (Ideal.ofBits .f32 0x47C35000#32) (Yv x0 x1 x2 x3 x4 x7 x8) q := by
  rw [Read.val_main_v42_apply, Read.val_main_v40_apply, Read.val_main_cst_6_apply, count_v41]
  simp only [Ideal.hostDivf_def, Ideal.ofBits_def, Cert.LibConsts.ofBits_zero, zero_add, idx_v40, layer_apply]
  rfl

/-- The variance of column q: the mean of the squared deviations from the column's mean. -/
theorem var_apply (x0 : FVec Ideal S100000x128 .f32) (x1 : FVec Ideal S128x128 .f32) (x2 : FVec Ideal S128 .f32) (x3 : FVec Ideal S128x128 .f32) (x4 : FVec Ideal S128 .f32) (x7 x8 : IVec S400000 32) (q : Fin 128) :
    Read.val_main_v49 (F := Ideal) x0 x1 x2 x3 x4 x7 x8 (ix1 q) = varDev (Ideal.ofBits .f32 0x47C35000#32) (Yv x0 x1 x2 x3 x4 x7 x8) q := by
  rw [Read.val_main_v49_apply, Read.val_main_v47_apply, Read.val_main_cst_8_apply, count_v48]
  simp only [Ideal.hostDivf_def, Ideal.ofBits_def, Cert.LibConsts.ofBits_zero, zero_add, idx_v47,
    Read.val_main_v46_apply, Read.val_main_v45_apply, Ideal.mulf_def, Ideal.subf_def, row_v44, layer_apply, mean_apply]
  rfl

/-- The normalised, scaled and shifted entry (p, q). -/
theorem out_apply (x0 : FVec Ideal S100000x128 .f32) (x1 : FVec Ideal S128x128 .f32) (x2 : FVec Ideal S128 .f32) (x3 : FVec Ideal S128x128 .f32) (x4 x5 x6 : FVec Ideal S128 .f32) (x7 x8 : IVec S400000 32) (p : Fin 100000) (q : Fin 128) :
    Read.val_main_v64 (F := Ideal) x0 x1 x2 x3 x4 x5 x6 x7 x8 (ix2 p q)
      = bn (Ideal.ofBits .f32 0x47C35000#32) (Ideal.ofBits .f32 0x3727C5AC#32) (varDev (Ideal.ofBits .f32 0x47C35000#32) (Yv x0 x1 x2 x3 x4 x7 x8)) (Yv x0 x1 x2 x3 x4 x7 x8)
          (fun q => x5 (ix1 q)) (fun q => x6 (ix1 q)) p q := by
  rw [Read.val_main_v64_apply, Read.val_main_v61_apply, Read.val_main_v58_apply, Read.val_main_v52_apply, layer_apply,
    row_v51, mean_apply, row_v57, Read.val_main_v55_apply, Read.val_main_v54_apply, var_apply, offset_v53, row_v60, row_v63]
  simp only [Ideal.addf_def, Ideal.mulf_def, Ideal.subf_def, Ideal.hostUnary_rsqrt_def]
  rfl

end stages

/-- At the launch's arrays the layer is the one above. -/
theorem Yr_eq (c : Dev nD) :
    Yr m c = Yv (a0 m c) (a1 m c) (a2 m c) (a3 m c) (a4 m c) (a7 m c) (a8 m c) := rfl

/-- The reference run's result at (p, q). -/
theorem res_apply (c : Dev nD) (p : Fin 100000) (q : Fin 128) :
    (Value.res_main_v64 (F := Ideal) m c : FVec Ideal S100000x128 .f32) (ix2 p q)
      = Cert.LibTwoBranchBn.bn (Ideal.ofBits .f32 0x47C35000#32) (Ideal.ofBits .f32 0x3727C5AC#32)
          (Cert.LibTwoBranchBn.varDev (Ideal.ofBits .f32 0x47C35000#32) (Yr m c)) (Yr m c)
          (fun q => a5 m c (ix1 q)) (fun q => a6 m c (ix1 q)) p q := by
  rw [Read.val_main_v64_eq, Yr_eq]
  exact out_apply _ _ _ _ _ _ _ _ _ p q

end Cert.ReferenceIdeal.RefValue

end
-- ==== Proof.PreFinite.lean ====
/- The precondition says of every float argument array that the absolute value of each entry is below +infinity.
   On the extended reals that is: every entry is a real number. -/
import proofs.«117146_j44933947850910_1_alg».proof.Proof.Gen.KernelIdeal
import proofs.«117146_j44933947850910_1_alg».proof.Proof.Gen.Pre_finite_inputs
import proofs.«117146_j44933947850910_1_alg».proof.Proof.LibFinite
import proofs.«117146_j44933947850910_1_alg».proof.Defs
import Idealize.ShloMosaic.Lib.ReduceAll
import Idealize.ShloMosaic.Lib.ValueIdx

set_option maxRecDepth 16384

noncomputable section

namespace Cert.KernelIdeal.PreFinite

open Cert.KernelIdeal
open Idealize.ShloMosaic Idealize.ShloMosaic.TcCoe Idealize.SL.Sem
open Cert.LibFinite

/-- The shape of a scalar: no axes, one index. -/
abbrev Sc : Shape := ⟨0, ![]⟩

/-- A scalar has exactly one index. -/
instance : Subsingleton Sc.Idx := ⟨fun a b => funext fun d => d.elim0⟩

/-- The f32 word with all exponent bits set, sign and fraction clear, denotes +infinity. -/
theorem inf_word : Ideal.ofBits .f32 0x7F800000#32 = (⊤ : EReal) := by
  simp [Ideal.ofBits, Ideal.ieee]

/-- A one-bit word made from a truth value is 1 exactly when the value is true. -/
theorem ofBool_eq_one {b : Bool} : BitVec.ofBool b = 1#1 ↔ b = true := by cases b <;> decide

/-- One entry: if |x| = max x (−x) compares below +infinity then x is neither infinity.
    x < ⊤ rules out ⊤; −x < ⊤ rules out ⊥, whose negative is ⊤. -/
theorem isFin_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsFin x := by
  have h' : Ideal.cmp .olt (max x (-x)) (Ideal.ofBits .f32 0x7F800000#32) = 1#1 := h
  rw [inf_word] at h'
  have hlt : max x (-x) < (⊤ : EReal) := of_decide_eq_true (ofBool_eq_one.mp h')
  obtain ⟨h1, h2⟩ := max_lt_iff.mp hlt
  refine ⟨h1.ne, fun hb => ?_⟩
  rw [hb, EReal.neg_bot] at h2
  exact lt_irrefl _ h2

/-- One array of any shape: when the conjunction over all indices of "|x i| < +infinity" is the one-bit 1,
    every entry of the array is a real number. -/
theorem all_fin {s : Shape} {axes : List (Fin s.rank)} (x : FVec Ideal s .f32)
    (hb : Sc.BroadcastsInDim s (![] : Fin 0 → Fin s.rank)) (hr : s.ReducesTo axes Sc) (hu : 0 < Sc.numel)
    (e : Host.reduce IntOp.andi
          (cmpf .olt (Host.absf x) (broadcastInDim s ![] hb (constant (F := Ideal) Sc .f32 0x7F800000#32)))
          (constantI Sc 1 1#1) hr hu ValueIdx.ix0 = 1#1) (i : s.Idx) : IsFin (x i) :=
  isFin_of_abs_lt_inf (x i) (Host.reduce_andi_all _ _ hr hu ValueIdx.ix0 e i)

/-- The precondition's predicate over nine array variables: if it is the one-bit 1, each of the seven float arrays has
    only real entries. The predicate is a conjunction, nested to the left, of one "all entries finite" bit per float array. -/
theorem fin_of_fn (a0 : FVec Ideal S100000x128 .f32) (a1 : FVec Ideal S128x128 .f32) (a2 : FVec Ideal S128 .f32)
    (a3 : FVec Ideal S128x128 .f32) (a4 a5 a6 : FVec Ideal S128 .f32) (a7 a8 : IVec S400000 32)
    (h : Cert.Pre_finite_inputs.fn (F := Ideal) a0 a1 a2 a3 a4 a5 a6 a7 a8 = fun _ => 1#1) :
    (∀ i, IsFin (a0 i)) ∧ (∀ i, IsFin (a1 i)) ∧ (∀ i, IsFin (a2 i)) ∧ (∀ i, IsFin (a3 i))
    ∧ (∀ i, IsFin (a4 i)) ∧ (∀ i, IsFin (a5 i)) ∧ (∀ i, IsFin (a6 i)) := by
  have h0 := congrFun h ValueIdx.ix0
  dsimp only [Cert.Pre_finite_inputs.fn, Cert.Pre_finite_inputs.fn_part1] at h0
  obtain ⟨h5, e6⟩ := IntOp.andi_eq_one.mp h0
  obtain ⟨h4, e5⟩ := IntOp.andi_eq_one.mp h5
  obtain ⟨h3, e4⟩ := IntOp.andi_eq_one.mp h4
  obtain ⟨h2, e3⟩ := IntOp.andi_eq_one.mp h3
  obtain ⟨h1, e2⟩ := IntOp.andi_eq_one.mp h2
  obtain ⟨e0, e1⟩ := IntOp.andi_eq_one.mp h1
  exact ⟨all_fin a0 _ _ _ e0, all_fin a1 _ _ _ e1, all_fin a2 _ _ _ e2, all_fin a3 _ _ _ e3,
    all_fin a4 _ _ _ e4, all_fin a5 _ _ _ e5, all_fin a6 _ _ _ e6⟩

variable (m : (ℓ : Loc nD τ sig) → Buf (Elt Ideal) ℓ)

/-- Under the precondition every float argument has only real entries. -/
theorem fin_of_pre
    (h : Cert.Pre_KernelIdeal (hPre_finite_inputs := Cert.Pre_finite_inputs.Gen.facts) m) (c : Dev nD) :
    (∀ i, IsFin ((m ((c.tc : Thread nD τ).loc main_arg0) : FVec Ideal S100000x128 .f32) i))
    ∧ (∀ i, IsFin ((m ((c.tc : Thread nD τ).loc main_arg1) : FVec Ideal S128x128 .f32) i))
    ∧ (∀ i, IsFin ((m ((c.tc : Thread nD τ).loc main_arg2) : FVec Ideal S128 .f32) i))
    ∧ (∀ i, IsFin ((m ((c.tc : Thread nD τ).loc main_arg3) : FVec Ideal S128x128 .f32) i))
    ∧ (∀ i, IsFin ((m ((c.tc : Thread nD τ).loc main_arg4) : FVec Ideal S128 .f32) i))
    ∧ (∀ i, IsFin ((m ((c.tc : Thread nD τ).loc main_arg5) : FVec Ideal S128 .f32) i))
    ∧ (∀ i, IsFin ((m ((c.tc : Thread nD τ).loc main_arg6) : FVec Ideal S128 .f32) i)) :=
  fin_of_fn _ _ _ _ _ _ _ _ _ (h c)

end Cert.KernelIdeal.PreFinite

end
-- ==== Proof.Claims.lean ====
/- The five claims. The three frames are the generated ones (the reference's is its generated run with the result
   dropped). Nothing was rewritten in the idealization, so that claim is trivial. For the value claim: the idealized
   kernel's run leaves in its result array, at (p, q), the batch normalisation of the two-branch layer y with each
   column's variance taken as the mean of the squares less the squared mean; the reference's run leaves the same with the
   variance taken as the mean of the squared deviations. Both read the aggregated features through one function of the
   arguments, so from agreeing arguments the two layers y are one array; under the precondition every float argument is
   real, so the aggregated features and y are real, and at real y the two variances are one number. -/
import proofs.«117146_j44933947850910_1_alg».proof.Defs
import proofs.«117146_j44933947850910_1_alg».proof.Proof.Gen.Kernel.Frame
import proofs.«117146_j44933947850910_1_alg».proof.Proof.Gen.KernelIdeal.Frame
import proofs.«117146_j44933947850910_1_alg».proof.Proof.Gen.ReferenceIdeal.Run
import proofs.«117146_j44933947850910_1_alg».proof.Proof.Gen.ReferenceIdeal.Read
import proofs.«117146_j44933947850910_1_alg».proof.Proof.KernelRun
import proofs.«117146_j44933947850910_1_alg».proof.Proof.KernelValue
import proofs.«117146_j44933947850910_1_alg».proof.Proof.RefValue
import proofs.«117146_j44933947850910_1_alg».proof.Proof.PreFinite
import proofs.«117146_j44933947850910_1_alg».proof.Proof.LibSymGcnAgg
import proofs.«117146_j44933947850910_1_alg».proof.Proof.LibTwoBranchBn

set_option maxRecDepth 16384

noncomputable section

namespace Cert.Proof.Claims

open Idealize.ShloMosaic Idealize.ShloMosaic.TcCoe Idealize.ShloMosaic.ValueIdx Idealize.SL.Sem
open Cert.LibFinite Cert.LibTwoBranchBn

/-- The shape relations the aggregation asks for, as the reference states them. -/
theorem refAggFacts : Cert.LibSymGcnAgg.Facts 400000 100000 128 :=
  ⟨Cert.ReferenceIdeal.Facts₀.bcast_S_S400000, Cert.ReferenceIdeal.Facts₀.bcast_S_S100000,
    Cert.ReferenceIdeal.Facts₀.bcast_S400000_S400000x1_0, Cert.ReferenceIdeal.Facts₀.bcast_S100000_S100000x1_0,
    Cert.ReferenceIdeal.Facts₀.bcast_S100000x1_S100000x128_0_1, Cert.ReferenceIdeal.Facts₀.bcast_S_S100000x128,
    Cert.ReferenceIdeal.Facts₀.scatter_S100000_S400000x1_S400000_n_0_0_1_wf,
    Cert.ReferenceIdeal.Facts₀.gather_S100000x128_S400000x1_S400000x128_1_0_n_n_0_1_1128_wf,
    Cert.ReferenceIdeal.Facts₀.scatter_S100000x128_S400000x1_S400000x128_1_0_0_1_wf⟩

/-- The reference's aggregated-features stage is the aggregation function of its three arguments. -/
theorem ref_agg (x0 : FVec Ideal Cert.ReferenceIdeal.S100000x128 .f32) (x7 x8 : IVec Cert.ReferenceIdeal.S400000 32) :
    Cert.ReferenceIdeal.Read.val_main_v28 (F := Ideal) x0 x7 x8 = Cert.LibSymGcnAgg.hagg refAggFacts 100000#32 x0 x7 x8 := rfl

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

section Value

open Cert.KernelIdeal.HostSide Cert.KernelIdeal.KernelValue

variable (m : (ℓ : Loc Cert.KernelIdeal.nD Cert.KernelIdeal.τ Cert.KernelIdeal.sig) → Buf (Elt Ideal) ℓ)

/-- Under the precondition the layer's entries are real. -/
theorem Yk_fin (h : Cert.Pre_KernelIdeal (hPre_finite_inputs := Cert.Pre_finite_inputs.Gen.facts) m)
    (c : Dev Cert.KernelIdeal.nD) (r : Fin 100000) (q : Fin 128) : IsFin (Yk m c r q) := by
  obtain ⟨f0, f1, f2, f3, f4, f5, f6⟩ := Cert.KernelIdeal.PreFinite.fin_of_pre m h c
  unfold Yk
  exact layer_fin (fun r j => Cert.LibSymGcnAgg.hagg_fin aggFacts 100000#32 (a0 m c) (a7 m c) (a8 m c) f0 (ix2 r j))
    (fun r j => f0 (ix2 r j)) (fun j q => f1 (ix2 j q)) (fun j q => f3 (ix2 j q)) (fun q => f2 (ix1 q)) (fun q => f4 (ix1 q)) r q

end Value

section Alg

open Cert.KernelIdeal.HostSide Cert.KernelIdeal.KernelValue

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From agreeing arguments the reference's layer is the kernel's: the aggregated features are one function of the
    features and the edge lists, and the layer reads the same arrays. -/
theorem Yr_eq_Yk (c : Dev Cert.KernelIdeal.nD)
    (h0 : Cert.ReferenceIdeal.RefValue.a0 m' c = a0 m c) (h1 : Cert.ReferenceIdeal.RefValue.a1 m' c = a1 m c)
    (h2 : Cert.ReferenceIdeal.RefValue.a2 m' c = a2 m c) (h3 : Cert.ReferenceIdeal.RefValue.a3 m' c = a3 m c)
    (h4 : Cert.ReferenceIdeal.RefValue.a4 m' c = a4 m c) (h7 : Cert.ReferenceIdeal.RefValue.a7 m' c = a7 m c)
    (h8 : Cert.ReferenceIdeal.RefValue.a8 m' c = a8 m c) : Cert.ReferenceIdeal.RefValue.Yr m' c = Yk m c := by
  unfold Cert.ReferenceIdeal.RefValue.Yr Yk
  rw [show Cert.ReferenceIdeal.RefValue.hRef m' c
        = Cert.LibSymGcnAgg.hagg aggFacts 100000#32 (a0 m c) (a7 m c) (a8 m c) from by
      show Cert.ReferenceIdeal.Read.val_main_v28 (F := Ideal) (Cert.ReferenceIdeal.RefValue.a0 m' c)
        (Cert.ReferenceIdeal.RefValue.a7 m' c) (Cert.ReferenceIdeal.RefValue.a8 m' c) = _
      rw [ref_agg, h0, h7, h8],
    h0, h1, h2, h3, h4]

end Alg

/-- The value claim. The kernel's run is the launch with its result left at the last boundary's contents; the
    reference's run ends at its composed term, which at every (p, q) is the same number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W4 m ρ c (Proc.devRef .tc Cert.KernelIdeal.main_v40),
    Cert.KernelIdeal.RunResult.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show (Cert.ReferenceIdeal.Value.res_main_v64 (F := Ideal) m' c : FVec Ideal Cert.KernelIdeal.S100000x128 .f32)
    = (Cert.KernelIdeal.Gen.W4 m ρ c (Proc.devRef .tc Cert.KernelIdeal.main_v40) : FVec Ideal Cert.KernelIdeal.S100000x128 .f32)
  funext i
  obtain ⟨p, q, rfl⟩ : ∃ (p : Fin 100000) (q : Fin 128), i = ix2 p q := ⟨i 0, i 1, eq_ix2 i⟩
  rw [Cert.KernelIdeal.KernelValue.result_at m ρ c p q]
  refine (Cert.ReferenceIdeal.RefValue.res_apply m' c p q).trans ?_
  rw [Yr_eq_Yk m m' c h0 h1 h2 h3 h4 h7 h8, bn_eq_100000 (Yk_fin m hpre c),
    show Cert.ReferenceIdeal.RefValue.a5 m' c = Cert.KernelIdeal.HostSide.a5 m c from h5,
    show Cert.ReferenceIdeal.RefValue.a6 m' c = Cert.KernelIdeal.HostSide.a6 m c from h6]

end Cert.Proof.Claims

end
-- ==== Proof.lean ====
/- The certificate of a residual graph-convolution layer with batch normalisation. Both programs aggregate the node
   features over the edges with the same host operations (degrees by an accumulating scatter, reciprocal square roots of
   the degrees raised to at least one, a gather of the scaled rows at the sources and an accumulating scatter at the
   destinations). The kernel program then computes y = max (H·W + b, 0) + max (X·Wr + br, 0) in twenty row blocks of 5000,
   accumulating each column's sum of y and of y² as it goes, forms the column mean and the variance E[y²] − E[y]² on the
   host, and normalises y in a second pass; the reference computes y whole, the mean, and the variance E[(y − E y)²]. On
   the extended reals the blockwise products and sums are the whole ones, a change of float format is the identity, and
   the two variances agree where y is finite, which the precondition (every float argument finite) gives: the
   aggregated features of real inputs are real whatever the edge lists hold. The claims are proved in Proof/Claims.lean
   and assembled here behind the witnesses of the programs' stated facts. -/
import proofs.«117146_j44933947850910_1_alg».proof.Defs
import proofs.«117146_j44933947850910_1_alg».proof.Proof.Gen.Kernel
import proofs.«117146_j44933947850910_1_alg».proof.Proof.Gen.Kernel.Skeleton
import proofs.«117146_j44933947850910_1_alg».proof.Proof.Gen.Kernel.Launch
import proofs.«117146_j44933947850910_1_alg».proof.Proof.Gen.Kernel.Points
import proofs.«117146_j44933947850910_1_alg».proof.Proof.Gen.Kernel.Frame
import proofs.«117146_j44933947850910_1_alg».proof.Proof.Gen.KernelIdeal
import proofs.«117146_j44933947850910_1_alg».proof.Proof.Gen.KernelIdeal.Skeleton
import proofs.«117146_j44933947850910_1_alg».proof.Proof.Gen.KernelIdeal.Launch
import proofs.«117146_j44933947850910_1_alg».proof.Proof.Gen.KernelIdeal.Points
import proofs.«117146_j44933947850910_1_alg».proof.Proof.Gen.KernelIdeal.Frame
import proofs.«117146_j44933947850910_1_alg».proof.Proof.Gen.ReferenceIdeal
import proofs.«117146_j44933947850910_1_alg».proof.Proof.Gen.Pre_finite_inputs
import proofs.«117146_j44933947850910_1_alg».proof.Proof.Gen.ReferenceIdeal.Run
import proofs.«117146_j44933947850910_1_alg».proof.Proof.Gen.ReferenceIdeal.Read
import proofs.«117146_j44933947850910_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
